-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v245)) (v1 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_v246) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v304) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S192x192x192x28 : Shape := ⟨4, ![192, 192, 192, 28]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S192x192x192x28 : S_.BroadcastsInDim S192x192x192x28 (![] : Fin 0 → Fin S192x192x192x28.rank)
  reducesTo_S192x192x192x28_S_d0_1_2_3 : S192x192x192x28.ReducesTo [0, 1, 2, 3] S_

variable [Facts]

def fn {F : FTy → Type} [FloatOps F] (main_arg0 : FVec F S2000000x3 .f32) (main_arg1 : FVec F S192x192x192x28 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S192x192x192x28 .f32 := Host.absf main_arg1
  let main_cst_0 : FVec F S_ .f32 := constant S_ .f32 0x7F800000#32
  let main_v5 : FVec F S192x192x192x28 .f32 := broadcastInDim S192x192x192x28 ![] bcast_S_S192x192x192x28 main_cst_0
  let main_v6 : IVec S192x192x192x28 1 := cmpf .olt main_v4 main_v5
  let main_c_1 : IVec S_ 1 := constantI S_ 1 1#1
  let main_v7 : IVec S_ 1 := (fun x v => Host.reduce IntOp.andi x v reducesTo_S192x192x192x28_S_d0_1_2_3 h_S_) main_v6 main_c_1
  let main_v8 : IVec S_ 1 := andi main_v3 main_v7
  main_v8
-- ==== Kernel.lean ====
abbrev S2000000x3 : Shape := ⟨2, ![2000000, 3]⟩
abbrev S192x192x192x28 : Shape := ⟨4, ![192, 192, 192, 28]⟩
abbrev S_ : Shape := ⟨0, ![]⟩
abbrev S2000000x1 : Shape := ⟨2, ![2000000, 1]⟩
abbrev S2000000 : Shape := ⟨1, ![2000000]⟩
abbrev S2000000x28 : Shape := ⟨2, ![2000000, 28]⟩
abbrev S2000000x31 : Shape := ⟨2, ![2000000, 31]⟩
abbrev S2000000x4 : Shape := ⟨2, ![2000000, 4]⟩
abbrev S16000x31 : Shape := ⟨2, ![16000, 31]⟩
abbrev S16000x4 : Shape := ⟨2, ![16000, 4]⟩
abbrev S16000x28 : Shape := ⟨2, ![16000, 28]⟩
abbrev S16000x3 : Shape := ⟨2, ![16000, 3]⟩
abbrev S16000x1 : Shape := ⟨2, ![16000, 1]⟩
abbrev S16000 : Shape := ⟨1, ![16000]⟩
abbrev S16000x9 : Shape := ⟨2, ![16000, 9]⟩

abbrev nBuf : Space → Nat
  | .hbm => 321
  | .vmem => 4
  | .smem => 0
  | _ => 0

abbrev hbmTy0_0 (i : Nat) : BufTy := match i % 128 with
  | 0 => ⟨S2000000x3, .f32⟩
  | 1 => ⟨S192x192x192x28, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000x3, .f32⟩
  | 10 => ⟨S2000000x3, .f32⟩
  | 11 => ⟨S_, .f32⟩
  | 12 => ⟨S2000000x3, .f32⟩
  | 13 => ⟨S2000000x3, .f32⟩
  | 14 => ⟨S_, .f32⟩
  | 15 => ⟨S_, .i32⟩
  | 16 => ⟨S_, .f32⟩
  | 17 => ⟨S2000000x3, .f32⟩
  | 18 => ⟨S2000000x3, .f32⟩
  | 19 => ⟨S_, .f32⟩
  | 20 => ⟨S2000000x3, .f32⟩
  | 21 => ⟨S2000000x3, .f32⟩
  | 22 => ⟨S2000000x3, .f32⟩
  | 23 => ⟨S2000000x3, .f32⟩
  | 24 => ⟨S2000000x3, .i32⟩
  | 25 => ⟨S_, .i32⟩
  | 26 => ⟨S2000000x3, .i32⟩
  | 27 => ⟨S2000000x3, .i32⟩
  | 28 => ⟨S_, .i32⟩
  | 29 => ⟨S2000000x3, .i32⟩
  | 30 => ⟨S2000000x3, .i32⟩
  | 31 => ⟨S2000000x1, .i32⟩
  | 32 => ⟨S2000000, .i32⟩
  | 33 => ⟨S2000000x1, .i32⟩
  | 34 => ⟨S2000000, .i32⟩
  | 35 => ⟨S2000000x1, .i32⟩
  | 36 => ⟨S2000000, .i32⟩
  | 37 => ⟨S2000000x1, .i32⟩
  | 38 => ⟨S2000000, .i32⟩
  | 39 => ⟨S2000000x1, .i32⟩
  | 40 => ⟨S2000000, .i32⟩
  | 41 => ⟨S2000000x1, .i32⟩
  | 42 => ⟨S2000000, .i32⟩
  | 43 => ⟨S2000000x1, .f32⟩
  | 44 => ⟨S2000000x1, .f32⟩
  | 45 => ⟨S2000000x1, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000x1, .i32⟩
  | 69 => ⟨S2000000x1, .i32⟩
  | 70 => ⟨S2000000x3, .i32⟩
  | 71 => ⟨S2000000x28, .f32⟩
  | 72 => ⟨S_, .f32⟩
  | 73 => ⟨S2000000x1, .f32⟩
  | 74 => ⟨S2000000x1, .f32⟩
  | 75 => ⟨S2000000x28, .f32⟩
  | 76 => ⟨S2000000x28, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x1, .i32⟩
  | 100 => ⟨S2000000x1, .i32⟩
  | 101 => ⟨S2000000x3, .i32⟩
  | 102 => ⟨S2000000x28, .f32⟩
  | 103 => ⟨S2000000x28, .f32⟩
  | 104 => ⟨S2000000x28, .f32⟩
  | 105 => ⟨S2000000x28, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S2000000x3, .f32⟩

abbrev hbmTy0_1 (i : Nat) : BufTy := match i % 128 with
  | 0 => ⟨S2000000x1, .i32⟩
  | 1 => ⟨S2000000x1, .i32⟩
  | 2 => ⟨S2000000x3, .i32⟩
  | 3 => ⟨S2000000x28, .f32⟩
  | 4 => ⟨S_, .f32⟩
  | 5 => ⟨S2000000x1, .f32⟩
  | 6 => ⟨S2000000x1, .f32⟩
  | 7 => ⟨S2000000x28, .f32⟩
  | 8 => ⟨S2000000x28, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x1, .i32⟩
  | 32 => ⟨S2000000x1, .i32⟩
  | 33 => ⟨S2000000x3, .i32⟩
  | 34 => ⟨S2000000x28, .f32⟩
  | 35 => ⟨S2000000x28, .f32⟩
  | 36 => ⟨S2000000x28, .f32⟩
  | 37 => ⟨S2000000x28, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x1, .i32⟩
  | 61 => ⟨S2000000x1, .i32⟩
  | 62 => ⟨S2000000x3, .i32⟩
  | 63 => ⟨S2000000x28, .f32⟩
  | 64 => ⟨S_, .f32⟩
  | 65 => ⟨S2000000x1, .f32⟩
  | 66 => ⟨S2000000x1, .f32⟩
  | 67 => ⟨S2000000x28, .f32⟩
  | 68 => ⟨S2000000x28, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x1, .i32⟩
  | 92 => ⟨S2000000x1, .i32⟩
  | 93 => ⟨S2000000x3, .i32⟩
  | 94 => ⟨S2000000x28, .f32⟩
  | 95 => ⟨S2000000x28, .f32⟩
  | 96 => ⟨S2000000x28, .f32⟩
  | 97 => ⟨S2000000x28, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x1, .i32⟩
  | 121 => ⟨S2000000x1, .i32⟩
  | 122 => ⟨S2000000x3, .i32⟩
  | 123 => ⟨S2000000x28, .f32⟩
  | 124 => ⟨S_, .f32⟩
  | 125 => ⟨S2000000x1, .f32⟩
  | 126 => ⟨S2000000x1, .f32⟩
  | 127 => ⟨S2000000x28, .f32⟩
  | _ => ⟨S2000000x3, .f32⟩

abbrev hbmTy0_2 (i : Nat) : BufTy := match i % 128 with
  | 0 => ⟨S2000000x28, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x1, .i32⟩
  | 24 => ⟨S2000000x1, .i32⟩
  | 25 => ⟨S2000000x3, .i32⟩
  | 26 => ⟨S2000000x28, .f32⟩
  | 27 => ⟨S2000000x28, .f32⟩
  | 28 => ⟨S2000000x28, .f32⟩
  | 29 => ⟨S2000000x28, .f32⟩
  | 30 => ⟨S_, .f32⟩
  | 31 => ⟨S2000000x1, .f32⟩
  | 32 => ⟨S2000000x1, .f32⟩
  | 33 => ⟨S2000000x28, .f32⟩
  | 34 => ⟨S2000000x28, .f32⟩
  | 35 => ⟨S2000000x28, .f32⟩
  | 36 => ⟨S2000000x28, .f32⟩
  | 37 => ⟨S2000000x28, .f32⟩
  | 38 => ⟨S_, .f32⟩
  | 39 => ⟨S2000000x1, .f32⟩
  | 40 => ⟨S2000000x1, .f32⟩
  | 41 => ⟨S2000000x28, .f32⟩
  | 42 => ⟨S2000000x28, .f32⟩
  | 43 => ⟨S2000000x28, .f32⟩
  | 44 => ⟨S2000000x28, .f32⟩
  | 45 => ⟨S2000000x28, .f32⟩
  | 46 => ⟨S_, .f32⟩
  | 47 => ⟨S2000000x1, .f32⟩
  | 48 => ⟨S2000000x1, .f32⟩
  | 49 => ⟨S2000000x28, .f32⟩
  | 50 => ⟨S2000000x28, .f32⟩
  | 51 => ⟨S2000000x28, .f32⟩
  | 52 => ⟨S2000000x28, .f32⟩
  | 53 => ⟨S2000000x28, .f32⟩
  | 54 => ⟨S2000000x3, .f32⟩
  | 55 => ⟨S_, .f32⟩
  | 56 => ⟨S2000000, .f32⟩
  | 57 => ⟨S2000000x1, .f32⟩
  | 58 => ⟨S2000000x1, .f32⟩
  | 59 => ⟨S2000000x3, .f32⟩
  | 60 => ⟨S2000000x3, .f32⟩
  | 61 => ⟨S2000000x31, .f32⟩
  | 62 => ⟨S2000000x4, .f32⟩
  | 63 => ⟨S2000000x3, .f32⟩
  | 64 => ⟨S2000000x1, .f32⟩
  | _ => ⟨S2000000x3, .f32⟩

abbrev hbmTy (i : Nat) : BufTy := match i / 128 with
  | 0 => hbmTy0_0 i
  | 1 => hbmTy0_1 i
  | 2 => hbmTy0_2 i
  | _ => ⟨S2000000x3, .f32⟩

abbrev bufTy : (tb : Table) → Fin (tcTables nBuf tb) → BufTy
  | .hbm, ⟨i, _⟩ => hbmTy i
  | .local _ .vmem, ⟨0, _⟩ => ⟨S16000x31, .f32⟩
  | .local _ .vmem, ⟨1, _⟩ => ⟨S16000x31, .f32⟩
  | .local _ .vmem, ⟨2, _⟩ => ⟨S16000x4, .f32⟩
  | .local _ .vmem, ⟨3, _⟩ => ⟨S16000x4, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_c_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_19 : Ref sig .tc := ⟨.hbm, 106, rfl⟩
abbrev main_v78 : Ref sig .tc := ⟨.hbm, 107, rfl⟩
abbrev main_v79 : Ref sig .tc := ⟨.hbm, 108, rfl⟩
abbrev main_c_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_21 : Ref sig .tc := ⟨.hbm, 113, rfl⟩
abbrev main_v83 : Ref sig .tc := ⟨.hbm, 114, rfl⟩
abbrev main_v84 : Ref sig .tc := ⟨.hbm, 115, rfl⟩
abbrev main_c_22 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_23 : Ref sig .tc := ⟨.hbm, 120, rfl⟩
abbrev main_v88 : Ref sig .tc := ⟨.hbm, 121, rfl⟩
abbrev main_v89 : Ref sig .tc := ⟨.hbm, 122, rfl⟩
abbrev main_c_24 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_26 : Ref sig .tc := ⟨.hbm, 137, rfl⟩
abbrev main_v102 : Ref sig .tc := ⟨.hbm, 138, rfl⟩
abbrev main_v103 : Ref sig .tc := ⟨.hbm, 139, rfl⟩
abbrev main_c_27 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_28 : Ref sig .tc := ⟨.hbm, 144, rfl⟩
abbrev main_v107 : Ref sig .tc := ⟨.hbm, 145, rfl⟩
abbrev main_v108 : Ref sig .tc := ⟨.hbm, 146, rfl⟩
abbrev main_c_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_c_31 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_32 : Ref sig .tc := ⟨.hbm, 166, rfl⟩
abbrev main_v125 : Ref sig .tc := ⟨.hbm, 167, rfl⟩
abbrev main_v126 : Ref sig .tc := ⟨.hbm, 168, rfl⟩
abbrev main_c_33 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_34 : Ref sig .tc := ⟨.hbm, 173, rfl⟩
abbrev main_v130 : Ref sig .tc := ⟨.hbm, 174, rfl⟩
abbrev main_v131 : Ref sig .tc := ⟨.hbm, 175, rfl⟩
abbrev main_c_35 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_36 : Ref sig .tc := ⟨.hbm, 180, rfl⟩
abbrev main_v135 : Ref sig .tc := ⟨.hbm, 181, rfl⟩
abbrev main_v136 : Ref sig .tc := ⟨.hbm, 182, rfl⟩
abbrev main_c_37 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_38 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_39 : Ref sig .tc := ⟨.hbm, 197, rfl⟩
abbrev main_v149 : Ref sig .tc := ⟨.hbm, 198, rfl⟩
abbrev main_v150 : Ref sig .tc := ⟨.hbm, 199, rfl⟩
abbrev main_c_40 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_41 : Ref sig .tc := ⟨.hbm, 204, rfl⟩
abbrev main_v154 : Ref sig .tc := ⟨.hbm, 205, rfl⟩
abbrev main_v155 : Ref sig .tc := ⟨.hbm, 206, rfl⟩
abbrev main_c_42 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_c_43 : Ref sig .tc := ⟨.hbm, 211, rfl⟩
abbrev main_v159 : Ref sig .tc := ⟨.hbm, 212, rfl⟩
abbrev main_v160 : Ref sig .tc := ⟨.hbm, 213, rfl⟩
abbrev main_c_44 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_45 : Ref sig .tc := ⟨.hbm, 226, rfl⟩
abbrev main_v172 : Ref sig .tc := ⟨.hbm, 227, rfl⟩
abbrev main_v173 : Ref sig .tc := ⟨.hbm, 228, rfl⟩
abbrev main_c_46 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_47 : Ref sig .tc := ⟨.hbm, 233, rfl⟩
abbrev main_v177 : Ref sig .tc := ⟨.hbm, 234, rfl⟩
abbrev main_v178 : Ref sig .tc := ⟨.hbm, 235, rfl⟩
abbrev main_c_48 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_c_49 : Ref sig .tc := ⟨.hbm, 240, rfl⟩
abbrev main_v182 : Ref sig .tc := ⟨.hbm, 241, rfl⟩
abbrev main_v183 : Ref sig .tc := ⟨.hbm, 242, rfl⟩
abbrev main_c_50 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_51 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_52 : Ref sig .tc := ⟨.hbm, 257, rfl⟩
abbrev main_v196 : Ref sig .tc := ⟨.hbm, 258, rfl⟩
abbrev main_v197 : Ref sig .tc := ⟨.hbm, 259, rfl⟩
abbrev main_c_53 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_c_54 : Ref sig .tc := ⟨.hbm, 264, rfl⟩
abbrev main_v201 : Ref sig .tc := ⟨.hbm, 265, rfl⟩
abbrev main_v202 : Ref sig .tc := ⟨.hbm, 266, rfl⟩
abbrev main_c_55 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_56 : Ref sig .tc := ⟨.hbm, 271, rfl⟩
abbrev main_v206 : Ref sig .tc := ⟨.hbm, 272, rfl⟩
abbrev main_v207 : Ref sig .tc := ⟨.hbm, 273, rfl⟩
abbrev main_c_57 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_58 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_cst_59 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_60 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_call1_v0 : Ref sig .tc := ⟨.hbm, 310, rfl⟩
abbrev main_call1_cst : Ref sig .tc := ⟨.hbm, 311, rfl⟩
abbrev main_call1_v1 : Ref sig .tc := ⟨.hbm, 312, rfl⟩
abbrev main_call1_v2 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S_S2000000x1 : S_.BroadcastsInDim S2000000x1 (![] : Fin 0 → Fin S2000000x1.rank)
  bcast_S2000000x1_S2000000x28_0_1 : S2000000x1.BroadcastsInDim S2000000x28 (![0, 1] : Fin 2 → Fin S2000000x28.rank)
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)
  concatenates_S2000000x28_S2000000x3_S2000000x31_d1 : Shape.Concatenates [S2000000x28, S2000000x3] S2000000x31 1
  inb_S16000x31_S16000x31_0_0 : ∀ a, (![0, 0] : Fin 2 → Nat) a + S16000x31.size a ≤ S16000x31.size a
  h_S16000x31 : 0 < S16000x31.numel
  shapeCasts_S16000x31_S16000x31 : S16000x31.ShapeCasts S16000x31
  slices_S16000x31_o0_0_S16000x28 : S16000x31.Slices ![0, 0] S16000x28
  slices_S16000x31_o0_28_S16000x3 : S16000x31.Slices ![0, 28] S16000x3
  slices_S16000x28_o0_0_S16000x1 : S16000x28.Slices ![0, 0] S16000x1
  shapeCasts_S16000x1_S16000 : S16000x1.ShapeCasts S16000
  slices_S16000x28_o0_1_S16000x9 : S16000x28.Slices ![0, 1] S16000x9
  slices_S16000x28_o0_10_S16000x9 : S16000x28.Slices ![0, 10] S16000x9
  slices_S16000x28_o0_19_S16000x9 : S16000x28.Slices ![0, 19] S16000x9
  slices_S16000x3_o0_0_S16000x1 : S16000x3.Slices ![0, 0] S16000x1
  slices_S16000x3_o0_1_S16000x1 : S16000x3.Slices ![0, 1] S16000x1
  slices_S16000x3_o0_2_S16000x1 : S16000x3.Slices ![0, 2] S16000x1
  shapeCasts_S16000_S16000x1 : S16000.ShapeCasts S16000x1
  concatenates_S16000x1_S16000x1_S16000x1_S16000x1_S16000x1_S16000x1_S16000x1_S16000x1_S16000x1_S16000x9_d1 : Shape.Concatenates [S16000x1, S16000x1, S16000x1, S16000x1, S16000x1, S16000x1, S16000x1, S16000x1, S16000x1] S16000x9 1
  reduces_S16000x9_S16000 : S16000x9.Reduces [1] S16000
  concatenates_S16000x1_S16000x1_S16000x1_S16000x1_S16000x4_d1 : Shape.Concatenates [S16000x1, S16000x1, S16000x1, S16000x1] S16000x4 1
  inb_S16000x4_S16000x4_0_0 : ∀ a, (![0, 0] : Fin 2 → Nat) a + S16000x4.size a ≤ S16000x4.size a
  h_S16000x4 : 0 < S16000x4.numel
  slices_S2000000x4_S2000000x3_0_0 : S2000000x4.Slices ![0, 0] S2000000x3
  slices_S2000000x4_S2000000x1_0_3 : S2000000x4.Slices ![0, 3] S2000000x1
  gather_S192x192x192x28_S2000000x3_S2000000x28_1_012_n_n_012_1_11128_wf : GatherDims.WF S192x192x192x28 S2000000x3 S2000000x28 [1] [0, 1, 2] [] [0, 1, 2] [] 1 ![1, 1, 1, 28]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x31.size a ≤ S2000000x31.size a
  hwx0_0 : ∀ i : grid0.Coords, EltTy.bits .f32 = 32 ∨ (Rect.block (s := S2000000x31) S16000x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x4.size a ≤ S2000000x4.size a
  hwx0_1 : ∀ i : grid0.Coords, EltTy.bits .f32 = 32 ∨ (Rect.block (s := S2000000x4) S16000x4.size (cc0_transform_1 i) (hinb0_1 i)).WholeWords (EltTy.packing .f32)

variable [Facts₀]

def gather_S192x192x192x28_S2000000x3_S2000000x28_1_012_n_n_012_1_11128 : GatherDims S192x192x192x28 S2000000x3 S2000000x28 where
  offsetDims := [1]
  collapsedSliceDims := [0, 1, 2]
  operandBatchingDims := []
  startIndicesBatchingDims := []
  startIndexMap := [0, 1, 2]
  indexVectorDim := 1
  sliceSizes := ![1, 1, 1, 28]
  wf := gather_S192x192x192x28_S2000000x3_S2000000x28_1_012_n_n_012_1_11128_wf

abbrev win0_0 : Pipeline.Window sig grid0 :=
  Pipeline.Window.ofSpec (Memref.whole main_v243) S16000x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v244) S16000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S192x192x192x28 : Shape := ⟨4, ![192, 192, 192, 28]⟩
abbrev S_ : Shape := ⟨0, ![]⟩
abbrev S2000000x1 : Shape := ⟨2, ![2000000, 1]⟩
abbrev S2000000 : Shape := ⟨1, ![2000000]⟩
abbrev S2000000x28 : Shape := ⟨2, ![2000000, 28]⟩
abbrev S2000000x27 : Shape := ⟨2, ![2000000, 27]⟩
abbrev S2000000x3x9 : Shape := ⟨3, ![2000000, 3, 9]⟩
abbrev S2000000x9 : Shape := ⟨2, ![2000000, 9]⟩
abbrev S2000000x1x9 : Shape := ⟨3, ![2000000, 1, 9]⟩

abbrev nBuf : Space → Nat
  | .hbm => 407
  | .vmem => 0
  | .smem => 0
  | _ => 0

abbrev hbmTy0_0 (i : Nat) : BufTy := match i % 128 with
  | 0 => ⟨S2000000x3, .f32⟩
  | 1 => ⟨S192x192x192x28, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000x3, .f32⟩
  | 10 => ⟨S2000000x3, .f32⟩
  | 11 => ⟨S_, .f32⟩
  | 12 => ⟨S2000000x3, .f32⟩
  | 13 => ⟨S2000000x3, .f32⟩
  | 14 => ⟨S_, .f32⟩
  | 15 => ⟨S_, .i32⟩
  | 16 => ⟨S_, .f32⟩
  | 17 => ⟨S2000000x3, .f32⟩
  | 18 => ⟨S2000000x3, .f32⟩
  | 19 => ⟨S_, .f32⟩
  | 20 => ⟨S2000000x3, .f32⟩
  | 21 => ⟨S2000000x3, .f32⟩
  | 22 => ⟨S2000000x3, .f32⟩
  | 23 => ⟨S2000000x3, .f32⟩
  | 24 => ⟨S2000000x3, .i32⟩
  | 25 => ⟨S_, .i32⟩
  | 26 => ⟨S2000000x3, .i32⟩
  | 27 => ⟨S2000000x3, .i32⟩
  | 28 => ⟨S_, .i32⟩
  | 29 => ⟨S2000000x3, .i32⟩
  | 30 => ⟨S2000000x3, .i32⟩
  | 31 => ⟨S2000000x1, .i32⟩
  | 32 => ⟨S2000000, .i32⟩
  | 33 => ⟨S2000000x1, .i32⟩
  | 34 => ⟨S2000000, .i32⟩
  | 35 => ⟨S2000000x1, .i32⟩
  | 36 => ⟨S2000000, .i32⟩
  | 37 => ⟨S2000000x1, .i32⟩
  | 38 => ⟨S2000000, .i32⟩
  | 39 => ⟨S2000000x1, .i32⟩
  | 40 => ⟨S2000000, .i32⟩
  | 41 => ⟨S2000000x1, .i32⟩
  | 42 => ⟨S2000000, .i32⟩
  | 43 => ⟨S2000000x1, .f32⟩
  | 44 => ⟨S2000000x1, .f32⟩
  | 45 => ⟨S2000000x1, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000x1, .i32⟩
  | 69 => ⟨S2000000x1, .i32⟩
  | 70 => ⟨S2000000x3, .i32⟩
  | 71 => ⟨S2000000x28, .f32⟩
  | 72 => ⟨S_, .f32⟩
  | 73 => ⟨S2000000x1, .f32⟩
  | 74 => ⟨S2000000x1, .f32⟩
  | 75 => ⟨S2000000x28, .f32⟩
  | 76 => ⟨S2000000x28, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x1, .i32⟩
  | 100 => ⟨S2000000x1, .i32⟩
  | 101 => ⟨S2000000x3, .i32⟩
  | 102 => ⟨S2000000x28, .f32⟩
  | 103 => ⟨S2000000x28, .f32⟩
  | 104 => ⟨S2000000x28, .f32⟩
  | 105 => ⟨S2000000x28, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S2000000x3, .f32⟩

abbrev hbmTy0_1 (i : Nat) : BufTy := match i % 128 with
  | 0 => ⟨S2000000x1, .i32⟩
  | 1 => ⟨S2000000x1, .i32⟩
  | 2 => ⟨S2000000x3, .i32⟩
  | 3 => ⟨S2000000x28, .f32⟩
  | 4 => ⟨S_, .f32⟩
  | 5 => ⟨S2000000x1, .f32⟩
  | 6 => ⟨S2000000x1, .f32⟩
  | 7 => ⟨S2000000x28, .f32⟩
  | 8 => ⟨S2000000x28, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x1, .i32⟩
  | 32 => ⟨S2000000x1, .i32⟩
  | 33 => ⟨S2000000x3, .i32⟩
  | 34 => ⟨S2000000x28, .f32⟩
  | 35 => ⟨S2000000x28, .f32⟩
  | 36 => ⟨S2000000x28, .f32⟩
  | 37 => ⟨S2000000x28, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x1, .i32⟩
  | 61 => ⟨S2000000x1, .i32⟩
  | 62 => ⟨S2000000x3, .i32⟩
  | 63 => ⟨S2000000x28, .f32⟩
  | 64 => ⟨S_, .f32⟩
  | 65 => ⟨S2000000x1, .f32⟩
  | 66 => ⟨S2000000x1, .f32⟩
  | 67 => ⟨S2000000x28, .f32⟩
  | 68 => ⟨S2000000x28, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x1, .i32⟩
  | 92 => ⟨S2000000x1, .i32⟩
  | 93 => ⟨S2000000x3, .i32⟩
  | 94 => ⟨S2000000x28, .f32⟩
  | 95 => ⟨S2000000x28, .f32⟩
  | 96 => ⟨S2000000x28, .f32⟩
  | 97 => ⟨S2000000x28, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x1, .i32⟩
  | 121 => ⟨S2000000x1, .i32⟩
  | 122 => ⟨S2000000x3, .i32⟩
  | 123 => ⟨S2000000x28, .f32⟩
  | 124 => ⟨S_, .f32⟩
  | 125 => ⟨S2000000x1, .f32⟩
  | 126 => ⟨S2000000x1, .f32⟩
  | 127 => ⟨S2000000x28, .f32⟩
  | _ => ⟨S2000000x3, .f32⟩

abbrev hbmTy0_2 (i : Nat) : BufTy := match i % 128 with
  | 0 => ⟨S2000000x28, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x1, .i32⟩
  | 24 => ⟨S2000000x1, .i32⟩
  | 25 => ⟨S2000000x3, .i32⟩
  | 26 => ⟨S2000000x28, .f32⟩
  | 27 => ⟨S2000000x28, .f32⟩
  | 28 => ⟨S2000000x28, .f32⟩
  | 29 => ⟨S2000000x28, .f32⟩
  | 30 => ⟨S_, .f32⟩
  | 31 => ⟨S2000000x1, .f32⟩
  | 32 => ⟨S2000000x1, .f32⟩
  | 33 => ⟨S2000000x28, .f32⟩
  | 34 => ⟨S2000000x28, .f32⟩
  | 35 => ⟨S2000000x28, .f32⟩
  | 36 => ⟨S2000000x28, .f32⟩
  | 37 => ⟨S2000000x28, .f32⟩
  | 38 => ⟨S_, .f32⟩
  | 39 => ⟨S2000000x1, .f32⟩
  | 40 => ⟨S2000000x1, .f32⟩
  | 41 => ⟨S2000000x28, .f32⟩
  | 42 => ⟨S2000000x28, .f32⟩
  | 43 => ⟨S2000000x28, .f32⟩
  | 44 => ⟨S2000000x28, .f32⟩
  | 45 => ⟨S2000000x28, .f32⟩
  | 46 => ⟨S_, .f32⟩
  | 47 => ⟨S2000000x1, .f32⟩
  | 48 => ⟨S2000000x1, .f32⟩
  | 49 => ⟨S2000000x28, .f32⟩
  | 50 => ⟨S2000000x28, .f32⟩
  | 51 => ⟨S2000000x28, .f32⟩
  | 52 => ⟨S2000000x28, .f32⟩
  | 53 => ⟨S2000000x28, .f32⟩
  | 54 => ⟨S2000000x1, .f32⟩
  | 55 => ⟨S2000000, .f32⟩
  | 56 => ⟨S2000000x27, .f32⟩
  | 57 => ⟨S2000000x3x9, .f32⟩
  | 58 => ⟨S2000000x3, .f32⟩
  | 59 => ⟨S_, .f32⟩
  | 60 => ⟨S2000000, .f32⟩
  | 61 => ⟨S2000000x1, .f32⟩
  | 62 => ⟨S2000000x1, .f32⟩
  | 63 => ⟨S2000000x3, .f32⟩
  | 64 => ⟨S2000000x3, .f32⟩
  | 65 => ⟨S2000000x1, .f32⟩
  | 66 => ⟨S2000000, .f32⟩
  | 67 => ⟨S2000000x1, .f32⟩
  | 68 => ⟨S2000000, .f32⟩
  | 69 => ⟨S2000000x1, .f32⟩
  | 70 => ⟨S2000000, .f32⟩
  | 71 => ⟨S_, .f32⟩
  | 72 => ⟨S2000000, .f32⟩
  | 73 => ⟨S_, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S2000000, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000x1, .f32⟩
  | 114 => ⟨S2000000x1, .f32⟩
  | 115 => ⟨S2000000x1, .f32⟩
  | 116 => ⟨S2000000x1, .f32⟩
  | 117 => ⟨S2000000x1, .f32⟩
  | 118 => ⟨S2000000x1, .f32⟩
  | 119 => ⟨S2000000x1, .f32⟩
  | 120 => ⟨S2000000x1, .f32⟩
  | 121 => ⟨S2000000x1, .f32⟩
  | 122 => ⟨S2000000x9, .f32⟩
  | 123 => ⟨S2000000x1x9, .f32⟩
  | 124 => ⟨S2000000x3x9, .f32⟩
  | 125 => ⟨S2000000x3x9, .f32⟩
  | 126 => ⟨S_, .f32⟩
  | 127 => ⟨S2000000x3, .f32⟩
  | _ => ⟨S2000000x3, .f32⟩

abbrev hbmTy0_3 (i : Nat) : BufTy := match i % 128 with
  | 0 => ⟨S2000000x3, .f32⟩
  | 1 => ⟨S2000000x3, .f32⟩
  | 2 => ⟨S_, .f32⟩
  | 3 => ⟨S2000000x3, .f32⟩
  | 4 => ⟨S2000000x3, .f32⟩
  | 5 => ⟨S_, .f32⟩
  | 6 => ⟨S2000000x3, .f32⟩
  | 7 => ⟨S2000000x3, .f32⟩
  | 8 => ⟨S_, .f32⟩
  | 9 => ⟨S2000000, .f32⟩
  | 10 => ⟨S2000000, .f32⟩
  | 11 => ⟨S2000000, .f32⟩
  | 12 => ⟨S2000000, .f32⟩
  | 13 => ⟨S2000000, .i1⟩
  | 14 => ⟨S2000000, .f32⟩
  | 15 => ⟨S2000000, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S2000000, .f32⟩
  | 22 => ⟨S2000000x1, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_c_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_19 : Ref sig .tc := ⟨.hbm, 106, rfl⟩
abbrev main_v78 : Ref sig .tc := ⟨.hbm, 107, rfl⟩
abbrev main_v79 : Ref sig .tc := ⟨.hbm, 108, rfl⟩
abbrev main_c_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_21 : Ref sig .tc := ⟨.hbm, 113, rfl⟩
abbrev main_v83 : Ref sig .tc := ⟨.hbm, 114, rfl⟩
abbrev main_v84 : Ref sig .tc := ⟨.hbm, 115, rfl⟩
abbrev main_c_22 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_23 : Ref sig .tc := ⟨.hbm, 120, rfl⟩
abbrev main_v88 : Ref sig .tc := ⟨.hbm, 121, rfl⟩
abbrev main_v89 : Ref sig .tc := ⟨.hbm, 122, rfl⟩
abbrev main_c_24 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_26 : Ref sig .tc := ⟨.hbm, 137, rfl⟩
abbrev main_v102 : Ref sig .tc := ⟨.hbm, 138, rfl⟩
abbrev main_v103 : Ref sig .tc := ⟨.hbm, 139, rfl⟩
abbrev main_c_27 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_28 : Ref sig .tc := ⟨.hbm, 144, rfl⟩
abbrev main_v107 : Ref sig .tc := ⟨.hbm, 145, rfl⟩
abbrev main_v108 : Ref sig .tc := ⟨.hbm, 146, rfl⟩
abbrev main_c_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_c_31 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_32 : Ref sig .tc := ⟨.hbm, 166, rfl⟩
abbrev main_v125 : Ref sig .tc := ⟨.hbm, 167, rfl⟩
abbrev main_v126 : Ref sig .tc := ⟨.hbm, 168, rfl⟩
abbrev main_c_33 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_34 : Ref sig .tc := ⟨.hbm, 173, rfl⟩
abbrev main_v130 : Ref sig .tc := ⟨.hbm, 174, rfl⟩
abbrev main_v131 : Ref sig .tc := ⟨.hbm, 175, rfl⟩
abbrev main_c_35 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_36 : Ref sig .tc := ⟨.hbm, 180, rfl⟩
abbrev main_v135 : Ref sig .tc := ⟨.hbm, 181, rfl⟩
abbrev main_v136 : Ref sig .tc := ⟨.hbm, 182, rfl⟩
abbrev main_c_37 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_38 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_39 : Ref sig .tc := ⟨.hbm, 197, rfl⟩
abbrev main_v149 : Ref sig .tc := ⟨.hbm, 198, rfl⟩
abbrev main_v150 : Ref sig .tc := ⟨.hbm, 199, rfl⟩
abbrev main_c_40 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_41 : Ref sig .tc := ⟨.hbm, 204, rfl⟩
abbrev main_v154 : Ref sig .tc := ⟨.hbm, 205, rfl⟩
abbrev main_v155 : Ref sig .tc := ⟨.hbm, 206, rfl⟩
abbrev main_c_42 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_c_43 : Ref sig .tc := ⟨.hbm, 211, rfl⟩
abbrev main_v159 : Ref sig .tc := ⟨.hbm, 212, rfl⟩
abbrev main_v160 : Ref sig .tc := ⟨.hbm, 213, rfl⟩
abbrev main_c_44 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_c_45 : Ref sig .tc := ⟨.hbm, 226, rfl⟩
abbrev main_v172 : Ref sig .tc := ⟨.hbm, 227, rfl⟩
abbrev main_v173 : Ref sig .tc := ⟨.hbm, 228, rfl⟩
abbrev main_c_46 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_47 : Ref sig .tc := ⟨.hbm, 233, rfl⟩
abbrev main_v177 : Ref sig .tc := ⟨.hbm, 234, rfl⟩
abbrev main_v178 : Ref sig .tc := ⟨.hbm, 235, rfl⟩
abbrev main_c_48 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_c_49 : Ref sig .tc := ⟨.hbm, 240, rfl⟩
abbrev main_v182 : Ref sig .tc := ⟨.hbm, 241, rfl⟩
abbrev main_v183 : Ref sig .tc := ⟨.hbm, 242, rfl⟩
abbrev main_c_50 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_51 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_52 : Ref sig .tc := ⟨.hbm, 257, rfl⟩
abbrev main_v196 : Ref sig .tc := ⟨.hbm, 258, rfl⟩
abbrev main_v197 : Ref sig .tc := ⟨.hbm, 259, rfl⟩
abbrev main_c_53 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_c_54 : Ref sig .tc := ⟨.hbm, 264, rfl⟩
abbrev main_v201 : Ref sig .tc := ⟨.hbm, 265, rfl⟩
abbrev main_v202 : Ref sig .tc := ⟨.hbm, 266, rfl⟩
abbrev main_c_55 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_56 : Ref sig .tc := ⟨.hbm, 271, rfl⟩
abbrev main_v206 : Ref sig .tc := ⟨.hbm, 272, rfl⟩
abbrev main_v207 : Ref sig .tc := ⟨.hbm, 273, rfl⟩
abbrev main_c_57 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_58 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_cst_59 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_60 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_call1_v0 : Ref sig .tc := ⟨.hbm, 314, rfl⟩
abbrev main_call1_cst : Ref sig .tc := ⟨.hbm, 315, rfl⟩
abbrev main_call1_v1 : Ref sig .tc := ⟨.hbm, 316, rfl⟩
abbrev main_call1_v2 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_cst_61 : Ref sig .tc := ⟨.hbm, 327, rfl⟩
abbrev main_v253 : Ref sig .tc := ⟨.hbm, 328, rfl⟩
abbrev main_cst_62 : Ref sig .tc := ⟨.hbm, 329, rfl⟩
abbrev main_v254 : Ref sig .tc := ⟨.hbm, 330, rfl⟩
abbrev main_v255 : Ref sig .tc := ⟨.hbm, 331, rfl⟩
abbrev main_cst_63 : Ref sig .tc := ⟨.hbm, 332, rfl⟩
abbrev main_v256 : Ref sig .tc := ⟨.hbm, 333, rfl⟩
abbrev main_v257 : Ref sig .tc := ⟨.hbm, 334, rfl⟩
abbrev main_cst_64 : Ref sig .tc := ⟨.hbm, 335, rfl⟩
abbrev main_v258 : Ref sig .tc := ⟨.hbm, 336, rfl⟩
abbrev main_v259 : Ref sig .tc := ⟨.hbm, 337, rfl⟩
abbrev main_cst_65 : Ref sig .tc := ⟨.hbm, 338, rfl⟩
abbrev main_v260 : Ref sig .tc := ⟨.hbm, 339, rfl⟩
abbrev main_v261 : Ref sig .tc := ⟨.hbm, 340, rfl⟩
abbrev main_cst_66 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_cst_67 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_cst_68 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_cst_69 : Ref sig .tc := ⟨.hbm, 353, rfl⟩
abbrev main_v271 : Ref sig .tc := ⟨.hbm, 354, rfl⟩
abbrev main_v272 : Ref sig .tc := ⟨.hbm, 355, rfl⟩
abbrev main_cst_70 : Ref sig .tc := ⟨.hbm, 356, rfl⟩
abbrev main_v273 : Ref sig .tc := ⟨.hbm, 357, rfl⟩
abbrev main_v274 : Ref sig .tc := ⟨.hbm, 358, rfl⟩
abbrev main_cst_71 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_cst_72 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_cst_73 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_cst_74 : Ref sig .tc := ⟨.hbm, 386, rfl⟩
abbrev main_v299 : Ref sig .tc := ⟨.hbm, 387, rfl⟩
abbrev main_v300 : Ref sig .tc := ⟨.hbm, 388, rfl⟩
abbrev main_cst_75 : Ref sig .tc := ⟨.hbm, 389, rfl⟩
abbrev main_v301 : Ref sig .tc := ⟨.hbm, 390, rfl⟩
abbrev main_v302 : Ref sig .tc := ⟨.hbm, 391, rfl⟩
abbrev main_call2_cst : Ref sig .tc := ⟨.hbm, 392, rfl⟩
abbrev main_call2_v0 : Ref sig .tc := ⟨.hbm, 393, rfl⟩
abbrev main_call2_v1 : Ref sig .tc := ⟨.hbm, 394, rfl⟩
abbrev main_call2_v2 : Ref sig .tc := ⟨.hbm, 395, rfl⟩
abbrev main_call2_v3 : Ref sig .tc := ⟨.hbm, 396, rfl⟩
abbrev main_call2_v4 : Ref sig .tc := ⟨.hbm, 397, rfl⟩
abbrev main_call2_v5 : Ref sig .tc := ⟨.hbm, 398, rfl⟩
abbrev main_call2_v6 : Ref sig .tc := ⟨.hbm, 399, rfl⟩
abbrev main_call2_v7 : Ref sig .tc := ⟨.hbm, 400, rfl⟩
abbrev main_call2_v8 : Ref sig .tc := ⟨.hbm, 401, rfl⟩
abbrev main_call2_v9 : Ref sig .tc := ⟨.hbm, 402, rfl⟩
abbrev main_call2_v10 : Ref sig .tc := ⟨.hbm, 403, rfl⟩
abbrev main_call2_v11 : Ref sig .tc := ⟨.hbm, 404, rfl⟩
abbrev main_v303 : Ref sig .tc := ⟨.hbm, 405, rfl⟩
abbrev main_v304 : Ref sig .tc := ⟨.hbm, 406, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S_S2000000x1 : S_.BroadcastsInDim S2000000x1 (![] : Fin 0 → Fin S2000000x1.rank)
  bcast_S2000000x1_S2000000x28_0_1 : S2000000x1.BroadcastsInDim S2000000x28 (![0, 1] : Fin 2 → Fin S2000000x28.rank)
  slices_S2000000x28_S2000000x1_0_0 : S2000000x28.Slices ![0, 0] S2000000x1
  slices_S2000000x28_S2000000x27_0_1 : S2000000x28.Slices ![0, 1] S2000000x27
  shapeCasts_S2000000x27_S2000000x3x9 : S2000000x27.ShapeCasts S2000000x3x9
  reducesTo_S2000000x3_S2000000_d1 : S2000000x3.ReducesTo [1] S2000000
  h_S_ : 0 < S_.numel
  bcast_S2000000x1_S2000000x3_0_1 : S2000000x1.BroadcastsInDim S2000000x3 (![0, 1] : Fin 2 → Fin S2000000x3.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  bcast_S2000000x9_S2000000x1x9_0_2 : S2000000x9.BroadcastsInDim S2000000x1x9 (![0, 2] : Fin 2 → Fin S2000000x1x9.rank)
  bcast_S2000000x1x9_S2000000x3x9_0_1_2 : S2000000x1x9.BroadcastsInDim S2000000x3x9 (![0, 1, 2] : Fin 3 → Fin S2000000x3x9.rank)
  reducesTo_S2000000x3x9_S2000000x3_d2 : S2000000x3x9.ReducesTo [2] S2000000x3
  gather_S192x192x192x28_S2000000x3_S2000000x28_1_012_n_n_012_1_11128_wf : GatherDims.WF S192x192x192x28 S2000000x3 S2000000x28 [1] [0, 1, 2] [] [0, 1, 2] [] 1 ![1, 1, 1, 28]

variable [Facts₀]

def gather_S192x192x192x28_S2000000x3_S2000000x28_1_012_n_n_012_1_11128 : GatherDims S192x192x192x28 S2000000x3 S2000000x28 where
  offsetDims := [1]
  collapsedSliceDims := [0, 1, 2]
  operandBatchingDims := []
  startIndicesBatchingDims := []
  startIndexMap := [0, 1, 2]
  indexVectorDim := 1
  sliceSizes := ![1, 1, 1, 28]
  wf := gather_S192x192x192x28_S2000000x3_S2000000x28_1_012_n_n_012_1_11128_wf

class Facts : Prop extends Facts₀ where

variable [Facts]
-- ==== Proof.KB.Host.lean ====
/-
  The host side of the word-level kernel program, around its one region.

  @main is five stretches of host operations (the scaling and clamping of the points, the
  floor and the eight gathers of the trilinear interpolation, the norm and the unit direction,
  and the packing of the 28 interpolated features with the 3 direction components into one
  array of 31 columns), then the region, then two slices of the region's 4-column result.

  Here: the contents every buffer holds when the region is entered, as the fold of the five
  stretches over the launch memory; that @main reduces to the region continued by the two
  slices; that the two slices touch only buffers outside the region's staging, allocate
  nothing and write neither of the region's arrays; and that no host line, before or after,
  writes either argument array.
-/
import proofs.«175109_j57191784513782_2_alg».proof.Proof.Gen.Kernel.Launch
import Idealize.ShloMosaic.Lib.Pipeline.FrameBody
import Idealize.ShloMosaic.Lib.Pipeline.FrameSuffix

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-! ## The contents at the region's entry -/

/-- Core `c`'s buffer contents when the region is entered: the five host stretches folded over the launch memory. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the five stretches, the region, the two slices: it reduces to the region continued by the slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The two slices after the region -/

/-- They touch the region's arrays and the buffers that bypass it, nothing staged. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result only: neither the packed input nor the packed output of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-! ## The argument arrays are written by no host line -/

/-- A buffer that no operation of any stretch writes keeps its contents across the stretches. -/
theorem after_flatten_keeps {b : DevRef τ sig} (opss : List (List (HloOp τ sig (Elt F)))) (W : Valuation τ sig (Elt F))
    (h : ∀ ops ∈ opss, ∀ op ∈ ops, b ∉ op.writes) : StableHlo.after opss.flatten W b = W b :=
  StableHlo.after_of_forall_not_mem _ _ (fun op hop => by
    obtain ⟨ops, hops, ho⟩ := List.mem_flatten.mp hop
    exact h ops hops op ho)

/-- Every operation of a stretch writes its own result buffer, which is neither argument: decided reference by reference. -/
local macro "no_write " ops:ident : tactic => `(tactic| (
  refine List.forall_iff_forall_mem.mp ?_
  simp only [$ops:ident, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes,
    Finset.mem_singleton]
  repeat' apply And.intro
  all_goals exact StableHlo.devRef_ne_of_ne (by decide)))

theorem keeps0 (b : Ref sig .tc) (hb : b = main_arg0 ∨ b = main_arg1) :
    ∀ op ∈ (hostOps0 : List (HloOp τ sig (Elt F))), Proc.devRef .tc b ∉ op.writes := by
  rcases hb with rfl | rfl <;> no_write hostOps0
theorem keeps0_1 (b : Ref sig .tc) (hb : b = main_arg0 ∨ b = main_arg1) :
    ∀ op ∈ (hostOps0_1 : List (HloOp τ sig (Elt F))), Proc.devRef .tc b ∉ op.writes := by
  rcases hb with rfl | rfl <;> no_write hostOps0_1
set_option maxHeartbeats 40000000 in
theorem keeps0_2 (b : Ref sig .tc) (hb : b = main_arg0 ∨ b = main_arg1) :
    ∀ op ∈ (hostOps0_2 : List (HloOp τ sig (Elt F))), Proc.devRef .tc b ∉ op.writes := by
  rcases hb with rfl | rfl <;> no_write hostOps0_2
theorem keeps0_3 (b : Ref sig .tc) (hb : b = main_arg0 ∨ b = main_arg1) :
    ∀ op ∈ (hostOps0_3 : List (HloOp τ sig (Elt F))), Proc.devRef .tc b ∉ op.writes := by
  rcases hb with rfl | rfl <;> no_write hostOps0_3
theorem keeps0_4 (b : Ref sig .tc) (hb : b = main_arg0 ∨ b = main_arg1) :
    ∀ op ∈ (hostOps0_4 : List (HloOp τ sig (Elt F))), Proc.devRef .tc b ∉ op.writes := by
  rcases hb with rfl | rfl <;> no_write hostOps0_4
theorem keeps1 (b : Ref sig .tc) (hb : b = main_arg0 ∨ b = main_arg1) :
    ∀ op ∈ (hostOps1 : List (HloOp τ sig (Elt F))), Proc.devRef .tc b ∉ op.writes := by
  rcases hb with rfl | rfl <;> no_write hostOps1

/-- The region finds an argument array as launched. -/
theorem V_arg (c : Dev nD) (b : Ref sig .tc) (hb : b = main_arg0 ∨ b = main_arg1) : V m c b = m ((c : Thread nD τ).loc b) :=
  after_flatten_keeps _ _ (fun ops hops => by
    simp only [List.mem_cons, List.mem_nil_iff, or_false] at hops
    rcases hops with rfl | rfl | rfl | rfl | rfl
    · exact keeps0 b hb
    · exact keeps0_1 b hb
    · exact keeps0_2 b hb
    · exact keeps0_3 b hb
    · exact keeps0_4 b hb)

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr rfl)

/-- And the two slices leave it so: an argument array ends as launched, whatever the region's proof data. -/
theorem W_arg (dats : (p : Fin _) → (c : Dev nD) → Dat τ (Elt F) Unit ℕ (UR sig nD τ) ℕ (cfgs p) c) (c : Dev nD)
    (b : Ref sig .tc) (hb : b = main_arg0 ∨ b = main_arg1) :
    Pipeline.afterTail₀ cfgs dats 0 (V0 m) [hostOps1] c b = m ((c : Thread nD τ).loc b) := by
  unfold Pipeline.afterTail₀
  rw [after_flatten_keeps (b := Proc.devRef .tc b) [hostOps1] _ (fun ops hops => by
      simp only [List.mem_cons, List.mem_nil_iff, or_false] at hops
      rcases hops with rfl
      exact keeps1 b hb),
    Pipeline.withArrays_of_ne _ c (V0 m c) _ b (by
      rcases hb with rfl | rfl
      · exact (by decide : ∀ w, Pipeline.arrRef spec0 w ≠ main_arg0)
      · exact (by decide : ∀ w, Pipeline.arrRef spec0 w ≠ main_arg1))]
  exact V_arg m c b hb

end Cert.Kernel.Host

end
-- ==== Proof.KB.Body.lean ====
/-
  The kernel body of the word-level program, as one triple.

  At a grid point the body reads its whole 16000 × 31 input block (28 interpolated features and
  3 direction components per row), computes per row the three colours and the density, and
  stores the whole 16000 × 4 output block; it also reads the output block once, and does nothing
  with what it read. So the output buffer ends at one function of the input block: the body's
  one store, over the whole block, of the printed arithmetic applied to the loaded block.
-/
import proofs.«175109_j57191784513782_2_alg».proof.Proof.Gen.Kernel.Launch
import proofs.«175109_j57191784513782_2_alg».proof.Proof.Gen.Kernel.Skeleton
import proofs.«175109_j57191784513782_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as the rectangle the body loads. -/
abbrev rIn : Rect S16000x31 := Rect.unit (s := S16000x31) ![0, 0] S16000x31.size inb_S16000x31_S16000x31_0_0
/-- The whole output block, as the rectangle the body stores. -/
abbrev rOut : Rect S16000x4 := Rect.unit (s := S16000x4) ![0, 0] S16000x4.size inb_S16000x4_S16000x4_0_0

/-- The printed arithmetic of the body on a loaded block `v`: the density column, the three groups of nine
    coefficients and the nine basis columns, combined into the four result columns. -/
def rows (v : Vec F S16000x31 .f32) : FVec F S16000x4 .f32 :=
  k0_pay1 (k0_pay5 v) (k0_pay6 v) (k0_pay7 v) (k0_pay8 v) (k0_pay12 (F := F)) (k0_pay13 v) (k0_pay14 v) (k0_pay15 v)
    (k0_pay16 v) (k0_pay17 v) (k0_pay18 v) (k0_pay19 v) (k0_pay20 v)

/-- What the output buffer holds after the body, from the input block: its one store, of the whole block. -/
def blockOut (x0 : Vec F S16000x31 .f32) : Vec F S16000x4 .f32 :=
  View.canon [⟨rOut, rows (View.ld x0 rIn)⟩]

/-- The one store covers the buffer. -/
theorem cover (p0 : Vec F S16000x4 .f32) (y : S16000x4.Idx) :
    ∃ pc ∈ ([⟨rOut, p0⟩] : List (View.Piece (Elt F) S16000x4 .f32)), y ∈ pc.1.set :=
  View.cover_of_tiled [⟨rOut, p0⟩] S16000x4.size (by rfl) y

set_option maxHeartbeats 4000000 in
/-- The body on whole staging buffers, the input's at contents `x0` and the output's at anything, runs to the
    continuation with the input's as it was and the output's at `blockOut x0`. -/
theorem sound_kernel (c : Dev nD) (E : Set ℕ) (i : grid0.Coords) (arg1 : Memref sig .tc .vmem S16000x31 .f32) (harg1 : arg1.IsWhole)
    (arg2 : Memref sig .tc .vmem S16000x4 .f32) (harg2 : arg2.IsWhole)
    (x0 : Vec F S16000x31 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__plenoxel_kernel i arg1 harg1 arg2 harg2) K := by
  simp only [cc0__plenoxel_kernel_eq_skeleton]; unfold cc0__plenoxel_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

end Cert.Kernel.Body

end
-- ==== Proof.KB.Region.lean ====
/-
  The region of the word-level kernel program: its proof data, the body obligation, the launch, the frame.

  The pipeline has two windows over a grid of 125 points: window 0 is rows 16000·t … 16000·t + 15999 of the
  packed 2000000 × 31 input, fetched at every point; window 1 the same rows of the 2000000 × 4 output, written
  back at every point. After the body at point t the input buffer still holds its block and the output buffer
  holds the body's function of that block; nothing is carried from one point to the next.
-/
import proofs.«175109_j57191784513782_2_alg».proof.Proof.KB.Host
import proofs.«175109_j57191784513782_2_alg».proof.Proof.KB.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data over the
    region-entry arrays whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` the input's buffer at its block and the
    output's at the body's function of that block; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = blockOut (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each array of the pipeline ends at what the proof data gives,
    every other unscoped buffer as the two slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, read at the two results and the two arguments: each result is what the slices after the region
    compute; each argument ends as launched. -/
theorem run_results : θ_run defs (onTc (τ := τ) (main (F := F))) ⟨m, fun _ => 0, ρ⟩ (fun r => ∀ c : Dev nD,
      r.2.mem ((c.tc : Thread nD τ).loc main_v245) = Pipeline.afterTail₀ cfgs (dats m) 0 (V0 m) [hostOps1] c main_v245
      ∧ r.2.mem ((c.tc : Thread nD τ).loc main_v246) = Pipeline.afterTail₀ cfgs (dats m) 0 (V0 m) [hostOps1] c main_v246
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v245 (Pipeline.mem_restRefs_of main_v245 (by decide) (by decide)),
     (h c).2 main_v246 (Pipeline.mem_restRefs_of main_v246 (by decide) (by decide)),
     ((h c).2 main_arg0 (Pipeline.mem_restRefs_of main_arg0 (by decide) (by decide))).trans (W_arg m (dats m) c _ (.inl rfl)),
     ((h c).2 main_arg1 (Pipeline.mem_restRefs_of main_arg1 (by decide) (by decide))).trans (W_arg m (dats m) c _ (.inr rfl))⟩) (run_main m ρ)

/-- The frame: @main runs to the end, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_results m ρ)

end Cert.Kernel.Region

end
-- ==== Proof.KI.Host.lean ====
/-
  The host side of the idealized kernel program, around its one region.

  @main is five stretches of host operations (the scaling and clamping of the points, the
  floor and the eight gathers of the trilinear interpolation, the norm and the unit direction,
  and the packing of the 28 interpolated features with the 3 direction components into one
  array of 31 columns), then the region, then two slices of the region's 4-column result.

  Here: the contents every buffer holds when the region is entered, as the fold of the five
  stretches over the launch memory; that @main reduces to the region continued by the two
  slices; that the two slices touch only buffers outside the region's staging, allocate
  nothing and write neither of the region's arrays; and that no host line, before or after,
  writes either argument array.
-/
import proofs.«175109_j57191784513782_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-! ## The contents at the region's entry -/

/-- Core `c`'s buffer contents when the region is entered: the five host stretches folded over the launch memory. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the five stretches, the region, the two slices: it reduces to the region continued by the slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The two slices after the region -/

/-- They touch the region's arrays and the buffers that bypass it, nothing staged. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result only: neither the packed input nor the packed output of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-! ## The argument arrays are written by no host line -/

/-- A buffer that no operation of any stretch writes keeps its contents across the stretches. -/
theorem after_flatten_keeps {b : DevRef τ sig} (opss : List (List (HloOp τ sig (Elt F)))) (W : Valuation τ sig (Elt F))
    (h : ∀ ops ∈ opss, ∀ op ∈ ops, b ∉ op.writes) : StableHlo.after opss.flatten W b = W b :=
  StableHlo.after_of_forall_not_mem _ _ (fun op hop => by
    obtain ⟨ops, hops, ho⟩ := List.mem_flatten.mp hop
    exact h ops hops op ho)

/-- Every operation of a stretch writes its own result buffer, which is neither argument: decided reference by reference. -/
local macro "no_write " ops:ident : tactic => `(tactic| (
  refine List.forall_iff_forall_mem.mp ?_
  simp only [$ops:ident, List.Forall, StableHlo.nullary_writes, StableHlo.unary_writes, StableHlo.binary_writes, StableHlo.ternary_writes,
    StableHlo.quaternary_writes, StableHlo.reshape_writes, StableHlo.binaryIndexed_writes, StableHlo.nary_writes, StableHlo.unaryIndexed_writes,
    Finset.mem_singleton]
  repeat' apply And.intro
  all_goals exact StableHlo.devRef_ne_of_ne (by decide)))

theorem keeps0 (b : Ref sig .tc) (hb : b = main_arg0 ∨ b = main_arg1) :
    ∀ op ∈ (hostOps0 : List (HloOp τ sig (Elt F))), Proc.devRef .tc b ∉ op.writes := by
  rcases hb with rfl | rfl <;> no_write hostOps0
theorem keeps0_1 (b : Ref sig .tc) (hb : b = main_arg0 ∨ b = main_arg1) :
    ∀ op ∈ (hostOps0_1 : List (HloOp τ sig (Elt F))), Proc.devRef .tc b ∉ op.writes := by
  rcases hb with rfl | rfl <;> no_write hostOps0_1
set_option maxHeartbeats 40000000 in
theorem keeps0_2 (b : Ref sig .tc) (hb : b = main_arg0 ∨ b = main_arg1) :
    ∀ op ∈ (hostOps0_2 : List (HloOp τ sig (Elt F))), Proc.devRef .tc b ∉ op.writes := by
  rcases hb with rfl | rfl <;> no_write hostOps0_2
theorem keeps0_3 (b : Ref sig .tc) (hb : b = main_arg0 ∨ b = main_arg1) :
    ∀ op ∈ (hostOps0_3 : List (HloOp τ sig (Elt F))), Proc.devRef .tc b ∉ op.writes := by
  rcases hb with rfl | rfl <;> no_write hostOps0_3
theorem keeps0_4 (b : Ref sig .tc) (hb : b = main_arg0 ∨ b = main_arg1) :
    ∀ op ∈ (hostOps0_4 : List (HloOp τ sig (Elt F))), Proc.devRef .tc b ∉ op.writes := by
  rcases hb with rfl | rfl <;> no_write hostOps0_4
theorem keeps1 (b : Ref sig .tc) (hb : b = main_arg0 ∨ b = main_arg1) :
    ∀ op ∈ (hostOps1 : List (HloOp τ sig (Elt F))), Proc.devRef .tc b ∉ op.writes := by
  rcases hb with rfl | rfl <;> no_write hostOps1

/-- The region finds an argument array as launched. -/
theorem V_arg (c : Dev nD) (b : Ref sig .tc) (hb : b = main_arg0 ∨ b = main_arg1) : V m c b = m ((c : Thread nD τ).loc b) :=
  after_flatten_keeps _ _ (fun ops hops => by
    simp only [List.mem_cons, List.mem_nil_iff, or_false] at hops
    rcases hops with rfl | rfl | rfl | rfl | rfl
    · exact keeps0 b hb
    · exact keeps0_1 b hb
    · exact keeps0_2 b hb
    · exact keeps0_3 b hb
    · exact keeps0_4 b hb)

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr rfl)

/-- And the two slices leave it so: an argument array ends as launched, whatever the region's proof data. -/
theorem W_arg (dats : (p : Fin _) → (c : Dev nD) → Dat τ (Elt F) Unit ℕ (UR sig nD τ) ℕ (cfgs p) c) (c : Dev nD)
    (b : Ref sig .tc) (hb : b = main_arg0 ∨ b = main_arg1) :
    Pipeline.afterTail₀ cfgs dats 0 (V0 m) [hostOps1] c b = m ((c : Thread nD τ).loc b) := by
  unfold Pipeline.afterTail₀
  rw [after_flatten_keeps (b := Proc.devRef .tc b) [hostOps1] _ (fun ops hops => by
      simp only [List.mem_cons, List.mem_nil_iff, or_false] at hops
      rcases hops with rfl
      exact keeps1 b hb),
    Pipeline.withArrays_of_ne _ c (V0 m c) _ b (by
      rcases hb with rfl | rfl
      · exact (by decide : ∀ w, Pipeline.arrRef spec0 w ≠ main_arg0)
      · exact (by decide : ∀ w, Pipeline.arrRef spec0 w ≠ main_arg1))]
  exact V_arg m c b hb

end Cert.KernelIdeal.Host

end
-- ==== Proof.KI.Body.lean ====
/-
  The kernel body of the idealized program, as one triple.

  At a grid point the body reads its whole 16000 × 31 input block (28 interpolated features and
  3 direction components per row), computes per row the three colours and the density, and
  stores the whole 16000 × 4 output block; it also reads the output block once, and does nothing
  with what it read. So the output buffer ends at one function of the input block: the body's
  one store, over the whole block, of the printed arithmetic applied to the loaded block.
-/
import proofs.«175109_j57191784513782_2_alg».proof.Proof.Gen.KernelIdeal.Launch
import proofs.«175109_j57191784513782_2_alg».proof.Proof.Gen.KernelIdeal.Skeleton
import proofs.«175109_j57191784513782_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as the rectangle the body loads. -/
abbrev rIn : Rect S16000x31 := Rect.unit (s := S16000x31) ![0, 0] S16000x31.size inb_S16000x31_S16000x31_0_0
/-- The whole output block, as the rectangle the body stores. -/
abbrev rOut : Rect S16000x4 := Rect.unit (s := S16000x4) ![0, 0] S16000x4.size inb_S16000x4_S16000x4_0_0

/-- The printed arithmetic of the body on a loaded block `v`: the density column, the three groups of nine
    coefficients and the nine basis columns, combined into the four result columns. -/
def rows (v : Vec F S16000x31 .f32) : FVec F S16000x4 .f32 :=
  k0_pay1 (k0_pay5 v) (k0_pay6 v) (k0_pay7 v) (k0_pay8 v) (k0_pay12 (F := F)) (k0_pay13 v) (k0_pay14 v) (k0_pay15 v)
    (k0_pay16 v) (k0_pay17 v) (k0_pay18 v) (k0_pay19 v) (k0_pay20 v)

/-- What the output buffer holds after the body, from the input block: its one store, of the whole block. -/
def blockOut (x0 : Vec F S16000x31 .f32) : Vec F S16000x4 .f32 :=
  View.canon [⟨rOut, rows (View.ld x0 rIn)⟩]

/-- The one store covers the buffer. -/
theorem cover (p0 : Vec F S16000x4 .f32) (y : S16000x4.Idx) :
    ∃ pc ∈ ([⟨rOut, p0⟩] : List (View.Piece (Elt F) S16000x4 .f32)), y ∈ pc.1.set :=
  View.cover_of_tiled [⟨rOut, p0⟩] S16000x4.size (by rfl) y

set_option maxHeartbeats 4000000 in
/-- The body on whole staging buffers, the input's at contents `x0` and the output's at anything, runs to the
    continuation with the input's as it was and the output's at `blockOut x0`. -/
theorem sound_kernel (c : Dev nD) (E : Set ℕ) (i : grid0.Coords) (arg1 : Memref sig .tc .vmem S16000x31 .f32) (harg1 : arg1.IsWhole)
    (arg2 : Memref sig .tc .vmem S16000x4 .f32) (harg2 : arg2.IsWhole)
    (x0 : Vec F S16000x31 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__plenoxel_kernel i arg1 harg1 arg2 harg2) K := by
  simp only [cc0__plenoxel_kernel_eq_skeleton]; unfold cc0__plenoxel_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

end Cert.KernelIdeal.Body

end
-- ==== Proof.KI.Region.lean ====
/-
  The region of the idealized kernel program: its proof data, the body obligation, the launch, the frame.

  The pipeline has two windows over a grid of 125 points: window 0 is rows 16000·t … 16000·t + 15999 of the
  packed 2000000 × 31 input, fetched at every point; window 1 the same rows of the 2000000 × 4 output, written
  back at every point. After the body at point t the input buffer still holds its block and the output buffer
  holds the body's function of that block; nothing is carried from one point to the next.
-/
import proofs.«175109_j57191784513782_2_alg».proof.Proof.KI.Host
import proofs.«175109_j57191784513782_2_alg».proof.Proof.KI.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data over the
    region-entry arrays whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` the input's buffer at its block and the
    output's at the body's function of that block; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = blockOut (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each array of the pipeline ends at what the proof data gives,
    every other unscoped buffer as the two slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, read at the two results and the two arguments: each result is what the slices after the region
    compute; each argument ends as launched. -/
theorem run_results : θ_run defs (onTc (τ := τ) (main (F := F))) ⟨m, fun _ => 0, ρ⟩ (fun r => ∀ c : Dev nD,
      r.2.mem ((c.tc : Thread nD τ).loc main_v245) = Pipeline.afterTail₀ cfgs (dats m) 0 (V0 m) [hostOps1] c main_v245
      ∧ r.2.mem ((c.tc : Thread nD τ).loc main_v246) = Pipeline.afterTail₀ cfgs (dats m) 0 (V0 m) [hostOps1] c main_v246
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v245 (Pipeline.mem_restRefs_of main_v245 (by decide) (by decide)),
     (h c).2 main_v246 (Pipeline.mem_restRefs_of main_v246 (by decide) (by decide)),
     ((h c).2 main_arg0 (Pipeline.mem_restRefs_of main_arg0 (by decide) (by decide))).trans (W_arg m (dats m) c _ (.inl rfl)),
     ((h c).2 main_arg1 (Pipeline.mem_restRefs_of main_arg1 (by decide) (by decide))).trans (W_arg m (dats m) c _ (.inr rfl))⟩) (run_main m ρ)

/-- The frame: @main runs to the end, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_results m ρ)

end Cert.KernelIdeal.Region

end
-- ==== Proof.LibNaryResults.lean ====
/-
  A host operation over a LITERAL family of three, or of nine, operand buffers, read at its result buffer.

  The library's `nary_result` hands the operation's function the family `fun k => F ↑(xs k)`: under that binder
  the buffer `xs k` is no literal, so a computation of the operands' contents stops there. For a literal family
  `![a, b, c]` the family is the three contents themselves, each at its own literal buffer (the library states
  this for four operands, `nary4_result`); stated here for three (a join of three index columns) and for nine (a
  join of nine basis columns), with the forms a `simp` pass can use, and the one-pass tactic of the library
  with these two lemmas in place of the general one.
-/
import Idealize.ShloMosaic.Lib.StableHlo.Run

namespace Idealize.ShloMosaic.StableHlo.Nary

open Idealize.ShloMosaic Idealize.ShloMosaic.StableHlo

variable {τ : Topo} {sig : RefSig} {Val : EltTy → Type}

section Three

variable {x a b y : Ref sig .tc}

/-- `nary` over a literal family of three references: its result, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

section Nine

variable {x0 x1 x2 x3 x4 x5 x6 x7 x8 y : Ref sig .tc}

/-- `nary` over a literal family of nine references: its result, each operand's contents at its own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

/-- The same with the result reference un-indexed, for a `simp` pass. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Nine

/-- The library's one-pass computation of what a buffer holds after a literal list of host operations, with a
    three- or nine-operand line read at its literal operand buffers. -/
macro "after_results_lit" : tactic =>
  `(tactic| (simp (disch := decide) only [after_cons, after_nil,
      nullary_result', unary_result', binary_result', ternary_result', quaternary_result', reshape_result', nary4_result',
      Idealize.ShloMosaic.StableHlo.Nary.nary3_result', Idealize.ShloMosaic.StableHlo.Nary.nary9_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo.Nary
-- ==== Proof.LibKernelRfl.lean ====
/-
  An equation between two definitionally equal terms, closed by reflexivity and checked by the kernel alone.

  `rfl` first has the elaborator's unifier establish that the two sides are definitionally equal, and then the
  kernel checks `Eq.refl` again. When one side is a large explicit term and the other a tower of definitions that
  unfolds to it, the unifier's search is slow where the kernel's conversion check is fast. `kernel_rfl` gives the
  goal `a = b` the proof `Eq.refl a` without asking the unifier; that `a` and `b` are definitionally equal is then
  checked once, by the kernel, when the theorem is added. Nothing is assumed: an equation that does not hold by
  conversion is rejected there.
-/
import Lean

namespace Idealize.ShloMosaic.KernelRfl

open Lean Elab Tactic Meta

/-- Close a goal `a = b` with `Eq.refl a`, leaving the conversion check to the kernel. -/
elab "kernel_rfl" : tactic => do
  let g ← getMainGoal
  let t ← instantiateMVars (← g.getType)
  let some (α, lhs, _) := t.eq? | throwError "kernel_rfl: the goal is not an equation"
  let u ← getLevel α
  g.assign (mkApp2 (mkConst ``Eq.refl [u]) α lhs)
  replaceMainGoal []

end Idealize.ShloMosaic.KernelRfl
-- ==== Proof.RefValue.lean ====
/-
  The reference's run, read at its last stages.

  The reference's @main is a straight line of 405 host operations, none of which allocates, and a signature that
  scopes nothing: every weakly fair execution terminates with each buffer at the fold of the operations over the
  launch contents. No operation writes an argument. The fold at the two result buffers is computed operation by
  operation, a join's operands at their own buffers, and is the composition of the read-at-an-index stages: the
  colours are stage 302 and the density stage 304 of the two arguments.
-/
import proofs.«175109_j57191784513782_2_alg».proof.Proof.RefRunP
import proofs.«175109_j57191784513782_2_alg».proof.Proof.RefStages
import proofs.«175109_j57191784513782_2_alg».proof.Proof.LibNaryResults
import proofs.«175109_j57191784513782_2_alg».proof.Proof.LibKernelRfl

set_option maxRecDepth 65536

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.StableHlo.Nary

variable {F : FTy → Type} [FloatOps F]

set_option maxHeartbeats 40000000 in
/-- No operation of @main allocates. -/
theorem ops_fresh : (ops : List (HloOp τ sig (Elt F))).Forall fun op => op.fresh = ∅ := by
  simp only [List.Forall]; repeat' constructor

/-- The run: every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (hfresh := fun _ => List.forall_iff_forall_mem.mp ops_fresh)

set_option maxHeartbeats 40000000 in
/-- Every operation writes its own result buffer, which is neither argument: decided reference by reference. -/
theorem keeps_arg (b : Ref sig .tc) (hb : b = main_arg0 ∨ b = main_arg1) :
    ∀ op ∈ (ops : List (HloOp τ sig (Elt F))), Proc.devRef .tc b ∉ op.writes := by
  rcases hb with rfl | rfl <;>
  · refine List.forall_iff_forall_mem.mp ?_
    simp only [ops, List.Forall, nullary_writes, unary_writes, binary_writes, ternary_writes, quaternary_writes, reshape_writes,
      binaryIndexed_writes, nary_writes, unaryIndexed_writes, Finset.mem_singleton]
    repeat' apply And.intro
    all_goals exact devRef_ne_of_ne (by decide)

set_option maxHeartbeats 400000000 in
/-- The colours: the fold at the first result buffer is stage 302 of the arguments. -/
theorem rgb_stage (m : (ℓ : Loc nD τ sig) → Buf (Elt F) ℓ) (c : Dev nD) :
    after ops (launchContents m c) (Proc.devRef .tc main_v302)
      = Cert.ReferenceIdeal.ReadP.val_main_v302 (F := F) (m ((c.tc : Thread nD τ).loc main_arg0)) (m ((c.tc : Thread nD τ).loc main_arg1)) := by
  after_results_lit
  try simp only [TRef.ofBuf, TRef.toBuf, cast_eq]
  kernel_rfl

set_option maxHeartbeats 400000000 in
/-- The density: the fold at the second result buffer is stage 304 of the arguments. -/
theorem sigma_stage (m : (ℓ : Loc nD τ sig) → Buf (Elt F) ℓ) (c : Dev nD) :
    after ops (launchContents m c) (Proc.devRef .tc main_v304)
      = Cert.ReferenceIdeal.ReadP.val_main_v304 (F := F) (m ((c.tc : Thread nD τ).loc main_arg0)) (m ((c.tc : Thread nD τ).loc main_arg1)) := by
  after_results_lit
  try simp only [TRef.ofBuf, TRef.toBuf, cast_eq]
  kernel_rfl

/-- The reference's results as stages of its arguments, and its arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v302) = Cert.ReferenceIdeal.ReadP.val_main_v302 (F := F) (m ((c.tc : Thread nD τ).loc main_arg0)) (m ((c.tc : Thread nD τ).loc main_arg1))
      ∧ r.2.mem ((c.tc : Thread nD τ).loc main_v304) = Cert.ReferenceIdeal.ReadP.val_main_v304 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v302).trans (rgb_stage m c),
     (h c main_v304).trans (sigma_stage m c),
     (h c main_arg0).trans ((after_of_forall_not_mem _ _ (keeps_arg main_arg0 (.inl rfl))).trans rfl),
     (h c main_arg1).trans ((after_of_forall_not_mem _ _ (keeps_arg main_arg1 (.inr rfl))).trans rfl)⟩)
    (run_after m ρ)

/-- The reference's frame: it runs to the end and its arguments end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2.2) (run_stages m ρ)

end Cert.ReferenceIdeal.RefValue

end
-- ==== Proof.RowSpec.lean ====
/-
  What one query point's packed row determines.

  A row is 31 extended reals: column 0 the interpolated density feature, columns 1 … 27 three groups of nine
  harmonic coefficients (group j in columns 1 + 9 j … 9 + 9 j), columns 28, 29, 30 the unit direction (x, y, z).
  The nine basis values of a direction are the real spherical harmonics up to degree two, with the constants
  kept as the binary32 words both programs print; a colour is the logistic of a group's nine coefficients summed
  against the basis; the density is the softplus of column 0, spelt max(a, 0) + log(1 + exp(−|a − 0|)) as both
  programs compute it.
-/
import Idealize.ShloMosaic.PureOps.Ideal
import Idealize.ShloMosaic.Lib.ValueIdx

noncomputable section

namespace Cert.Spec

open Idealize.ShloMosaic

/-- A binary32 word read as the extended real it denotes. -/
abbrev w32 (b : BitVec 32) : EReal := (FloatOps.ofBits (F := Ideal) .f32 b : Ideal .f32)

/-- The nine harmonic basis values at the direction (x, y, z), in the programs' order. -/
def basis (x y z : EReal) (k : Fin 9) : EReal :=
  match k with
  | ⟨0, _⟩ => w32 0x3E906EBB#32 * w32 0x3F800000#32
  | ⟨1, _⟩ => w32 0x3EFA2A1C#32 * y
  | ⟨2, _⟩ => w32 0x3EFA2A1C#32 * z
  | ⟨3, _⟩ => w32 0x3EFA2A1C#32 * x
  | ⟨4, _⟩ => w32 0x3F0BD8A1#32 * x * y
  | ⟨5, _⟩ => w32 0x3F0BD8A1#32 * y * z
  | ⟨6, _⟩ => w32 0x3E217B01#32 * (w32 0x40400000#32 * z * z - w32 0x3F800000#32)
  | ⟨7, _⟩ => w32 0x3F0BD8A1#32 * x * z
  | ⟨8, _⟩ => w32 0x3E8BD8A1#32 * (x * x - y * y)

/-- One colour: the logistic of nine coefficients summed against the basis. -/
def colour (coef : Fin 9 → EReal) (x y z : EReal) : EReal :=
  Ideal.logistic (∑ k : Fin 9, coef k * basis x y z k)

/-- The density: softplus, as max(a, 0) + log1p(exp(−|a − 0|)), the zero being the word 0x00000000. -/
def density (a : EReal) : EReal :=
  max a (w32 0x00000000#32) + Ideal.log1p (Ideal.exp (-(max (a - w32 0x00000000#32) (-(a - w32 0x00000000#32)))))

/-- Colour j of a packed row: group j's coefficients against the basis of the row's direction. -/
def rgb (p : Fin 31 → EReal) (j : Fin 3) : EReal :=
  colour (fun k => p ⟨1 + 9 * j.val + k.val, by have := j.isLt; have := k.isLt; omega⟩) (p 28) (p 29) (p 30)

/-- The four results of a packed row: three colours, then the density. -/
def out4 (p : Fin 31 → EReal) (j : Fin 4) : EReal :=
  if h : j.val < 3 then rgb p ⟨j.val, h⟩ else density (p 0)

/-- The packed 2000000 × 4 result as a function of the packed 2000000 × 31 input: row by row. -/
def G (P : (⟨2, ![2000000, 31]⟩ : Shape).Idx → EReal) : (⟨2, ![2000000, 4]⟩ : Shape).Idx → EReal :=
  fun i => out4 (fun c => P (ValueIdx.ix2 (i 0) c)) (i 1)

end Cert.Spec

end
-- ==== Proof.KI.RowValue.lean ====
/-
  The kernel body's arithmetic, read one entry at a time.

  On a loaded 16000 × 31 block the body's stored value at row r, column j depends on row r only: columns 0, 1, 2
  are the three colours of that row and column 3 its density (RowSpec.lean).
-/
import proofs.«175109_j57191784513782_2_alg».proof.Proof.Gen.KernelIdeal.Skeleton
import proofs.«175109_j57191784513782_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen
open Idealize.ShloMosaic Idealize.ShloMosaic.TcCoe Idealize.ShloMosaic.ValueIdx

/-! ## Column casts read at an index -/

/-- A vector of length a cast to an a × 1 column reads, at (i, u), the vector at i. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column cast to a vector of length a reads, at i, the column at (i, 0). -/
theorem cast_vec {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The two column casts at the block's height. -/
theorem colCast_apply {α : Type} (x : S16000.Idx → α) (h : S16000.ShapeCasts S16000x1) (r : Fin 16000) (u : Fin 1) :
    shapeCast S16000x1 x h (ix2 r u) = x (ix1 r) := cast_col x h r u

theorem vecCast_apply {α : Type} (x : S16000x1.Idx → α) (h : S16000x1.ShapeCasts S16000) (r : Fin 16000) :
    shapeCast S16000 x h (ix1 r) = x (ix2 r (0 : Fin 1)) := cast_vec x h r

/-! ## The loaded block's columns -/

/-- The block cast to its own shape is the block. -/
theorem pay2_eq (v : Vec Ideal S16000x31 .f32) : k0_pay2 (F := Ideal) v = v := by
  unfold k0_pay2
  exact shapeCast_self v _

/-- Column c of the first 28 columns is column c of the block. -/
theorem pay3_apply (v : Vec Ideal S16000x31 .f32) (r : Fin 16000) (c : Fin 28) (c' : Fin 31) (hc : c'.val = c.val) :
    k0_pay3 (F := Ideal) v (ix2 r c) = v (ix2 r c') :=
  (slice2_axis1_apply 0 (k0_pay2 (F := Ideal) v) slices_S16000x31_o0_0_S16000x28 r c c'
    (hc.trans (Nat.zero_add _).symm)).trans (congrFun (pay2_eq v) _)

/-- Column c of the last three columns is column 28 + c of the block. -/
theorem pay4_apply (v : Vec Ideal S16000x31 .f32) (r : Fin 16000) (c : Fin 3) (c' : Fin 31) (hc : c'.val = 28 + c.val) :
    k0_pay4 (F := Ideal) v (ix2 r c) = v (ix2 r c') :=
  (slice2_axis1_apply 28 (k0_pay2 (F := Ideal) v) slices_S16000x31_o0_28_S16000x3 r c c' hc).trans
    (congrFun (pay2_eq v) _)

/-- The density feature: column 0. -/
theorem pay5_apply (v : Vec Ideal S16000x31 .f32) (r : Fin 16000) :
    k0_pay5 (F := Ideal) v (ix1 r) = v (ix2 r (0 : Fin 31)) := by
  unfold k0_pay5
  refine (vecCast_apply _ _ r).trans ?_
  refine (slice2_axis1_apply 0 (k0_pay3 (F := Ideal) v) slices_S16000x28_o0_0_S16000x1 r (0 : Fin 1) (0 : Fin 28) rfl).trans ?_
  exact pay3_apply v r 0 0 rfl

/-- The three coefficient groups: columns 1 + k, 10 + k, 19 + k. -/
theorem pay6_apply (v : Vec Ideal S16000x31 .f32) (r : Fin 16000) (k : Fin 9) (c' : Fin 31) (hc : c'.val = 1 + k.val) :
    k0_pay6 (F := Ideal) v (ix2 r k) = v (ix2 r c') :=
  (slice2_axis1_apply 1 (k0_pay3 (F := Ideal) v) slices_S16000x28_o0_1_S16000x9 r k
    ⟨1 + k.val, by have := k.isLt; omega⟩ rfl).trans (pay3_apply v r _ c' hc)

theorem pay7_apply (v : Vec Ideal S16000x31 .f32) (r : Fin 16000) (k : Fin 9) (c' : Fin 31) (hc : c'.val = 10 + k.val) :
    k0_pay7 (F := Ideal) v (ix2 r k) = v (ix2 r c') :=
  (slice2_axis1_apply 10 (k0_pay3 (F := Ideal) v) slices_S16000x28_o0_10_S16000x9 r k
    ⟨10 + k.val, by have := k.isLt; omega⟩ rfl).trans (pay3_apply v r _ c' hc)

theorem pay8_apply (v : Vec Ideal S16000x31 .f32) (r : Fin 16000) (k : Fin 9) (c' : Fin 31) (hc : c'.val = 19 + k.val) :
    k0_pay8 (F := Ideal) v (ix2 r k) = v (ix2 r c') :=
  (slice2_axis1_apply 19 (k0_pay3 (F := Ideal) v) slices_S16000x28_o0_19_S16000x9 r k
    ⟨19 + k.val, by have := k.isLt; omega⟩ rfl).trans (pay3_apply v r _ c' hc)

/-- The direction: columns 28, 29, 30. -/
theorem pay9_apply (v : Vec Ideal S16000x31 .f32) (r : Fin 16000) :
    k0_pay9 (F := Ideal) v (ix1 r) = v (ix2 r (28 : Fin 31)) := by
  unfold k0_pay9
  refine (vecCast_apply _ _ r).trans ?_
  refine (slice2_axis1_apply 0 (k0_pay4 (F := Ideal) v) slices_S16000x3_o0_0_S16000x1 r (0 : Fin 1) (0 : Fin 3) rfl).trans ?_
  exact pay4_apply v r 0 28 rfl

theorem pay10_apply (v : Vec Ideal S16000x31 .f32) (r : Fin 16000) :
    k0_pay10 (F := Ideal) v (ix1 r) = v (ix2 r (29 : Fin 31)) := by
  unfold k0_pay10
  refine (vecCast_apply _ _ r).trans ?_
  refine (slice2_axis1_apply 1 (k0_pay4 (F := Ideal) v) slices_S16000x3_o0_1_S16000x1 r (0 : Fin 1) (1 : Fin 3) rfl).trans ?_
  exact pay4_apply v r 1 29 rfl

theorem pay11_apply (v : Vec Ideal S16000x31 .f32) (r : Fin 16000) :
    k0_pay11 (F := Ideal) v (ix1 r) = v (ix2 r (30 : Fin 31)) := by
  unfold k0_pay11
  refine (vecCast_apply _ _ r).trans ?_
  refine (slice2_axis1_apply 2 (k0_pay4 (F := Ideal) v) slices_S16000x3_o0_2_S16000x1 r (0 : Fin 1) (2 : Fin 3) rfl).trans ?_
  exact pay4_apply v r 2 30 rfl
/-! ## The nine basis vectors at a row -/

theorem pay12_val (r : Fin 16000) :
    k0_pay12 (F := Ideal) (ix1 r) = Cert.Spec.w32 0x3E906EBB#32 * Cert.Spec.w32 0x3F800000#32 := rfl

theorem pay13_val (v : Vec Ideal S16000x31 .f32) (r : Fin 16000) :
    k0_pay13 (F := Ideal) v (ix1 r) = Cert.Spec.w32 0x3EFA2A1C#32 * v (ix2 r (29 : Fin 31)) := by
  show Cert.Spec.w32 0x3EFA2A1C#32 * k0_pay10 (F := Ideal) v (ix1 r) = _
  rw [pay10_apply]

theorem pay14_val (v : Vec Ideal S16000x31 .f32) (r : Fin 16000) :
    k0_pay14 (F := Ideal) v (ix1 r) = Cert.Spec.w32 0x3EFA2A1C#32 * v (ix2 r (30 : Fin 31)) := by
  show Cert.Spec.w32 0x3EFA2A1C#32 * k0_pay11 (F := Ideal) v (ix1 r) = _
  rw [pay11_apply]

theorem pay15_val (v : Vec Ideal S16000x31 .f32) (r : Fin 16000) :
    k0_pay15 (F := Ideal) v (ix1 r) = Cert.Spec.w32 0x3EFA2A1C#32 * v (ix2 r (28 : Fin 31)) := by
  show Cert.Spec.w32 0x3EFA2A1C#32 * k0_pay9 (F := Ideal) v (ix1 r) = _
  rw [pay9_apply]

theorem pay16_val (v : Vec Ideal S16000x31 .f32) (r : Fin 16000) :
    k0_pay16 (F := Ideal) v (ix1 r)
      = Cert.Spec.w32 0x3F0BD8A1#32 * v (ix2 r (28 : Fin 31)) * v (ix2 r (29 : Fin 31)) := by
  show Cert.Spec.w32 0x3F0BD8A1#32 * k0_pay9 (F := Ideal) v (ix1 r) * k0_pay10 (F := Ideal) v (ix1 r) = _
  rw [pay9_apply, pay10_apply]

theorem pay17_val (v : Vec Ideal S16000x31 .f32) (r : Fin 16000) :
    k0_pay17 (F := Ideal) v (ix1 r)
      = Cert.Spec.w32 0x3F0BD8A1#32 * v (ix2 r (29 : Fin 31)) * v (ix2 r (30 : Fin 31)) := by
  show Cert.Spec.w32 0x3F0BD8A1#32 * k0_pay10 (F := Ideal) v (ix1 r) * k0_pay11 (F := Ideal) v (ix1 r) = _
  rw [pay10_apply, pay11_apply]

theorem pay18_val (v : Vec Ideal S16000x31 .f32) (r : Fin 16000) :
    k0_pay18 (F := Ideal) v (ix1 r)
      = Cert.Spec.w32 0x3E217B01#32
          * (Cert.Spec.w32 0x40400000#32 * v (ix2 r (30 : Fin 31)) * v (ix2 r (30 : Fin 31)) - Cert.Spec.w32 0x3F800000#32) := by
  show Cert.Spec.w32 0x3E217B01#32
      * (Cert.Spec.w32 0x40400000#32 * k0_pay11 (F := Ideal) v (ix1 r) * k0_pay11 (F := Ideal) v (ix1 r)
          - Cert.Spec.w32 0x3F800000#32) = _
  rw [pay11_apply]

theorem pay19_val (v : Vec Ideal S16000x31 .f32) (r : Fin 16000) :
    k0_pay19 (F := Ideal) v (ix1 r)
      = Cert.Spec.w32 0x3F0BD8A1#32 * v (ix2 r (28 : Fin 31)) * v (ix2 r (30 : Fin 31)) := by
  show Cert.Spec.w32 0x3F0BD8A1#32 * k0_pay9 (F := Ideal) v (ix1 r) * k0_pay11 (F := Ideal) v (ix1 r) = _
  rw [pay9_apply, pay11_apply]

theorem pay20_val (v : Vec Ideal S16000x31 .f32) (r : Fin 16000) :
    k0_pay20 (F := Ideal) v (ix1 r)
      = Cert.Spec.w32 0x3E8BD8A1#32
          * (v (ix2 r (28 : Fin 31)) * v (ix2 r (28 : Fin 31)) - v (ix2 r (29 : Fin 31)) * v (ix2 r (29 : Fin 31))) := by
  show Cert.Spec.w32 0x3E8BD8A1#32
      * (k0_pay9 (F := Ideal) v (ix1 r) * k0_pay9 (F := Ideal) v (ix1 r)
          - k0_pay10 (F := Ideal) v (ix1 r) * k0_pay10 (F := Ideal) v (ix1 r)) = _
  rw [pay9_apply, pay10_apply]

/-! ## Columns laid side by side -/

/-- A block built from 16000 × 1 columns laid side by side reads, at (r, k), column k at (r, 0): the columns before it
    are k unit extents. -/
theorem col_read {α : Type} {n : ℕ} (xs : List ((s : Shape) × (s.Idx → α)))
    (hc : Shape.Concatenates (xs.map (·.1)) (⟨2, ![16000, n]⟩ : Shape) 1) (r : Fin 16000) (k : Fin n)
    (hk : k.val < xs.length) (x : S16000x1.Idx → α) (hxk : xs[k.val] = ⟨S16000x1, x⟩)
    (hpre : (((xs.take k.val).map (·.1)).map fun s =>
        if h : s.rank = (⟨2, ![16000, n]⟩ : Shape).rank then
          s.size ((1 : Fin (⟨2, ![16000, n]⟩ : Shape).rank).cast h.symm) else 0).sum = k.val) :
    concatenate (⟨2, ![16000, n]⟩ : Shape) 1 xs hc (ix2 r k) = x (ix2 r (0 : Fin 1)) :=
  concatenate_apply_piece 1 xs hc (ix2 r k) k.val hk S16000x1 x hxk rfl k.val hpre (ix2 r (0 : Fin 1))
    (fun b hb => match b, hb with
      | ⟨0, _⟩, _ => rfl
      | ⟨1, _⟩, hb => (hb rfl).elim) rfl

/-! ## The basis block -/

/-- The body's 16000 × 9 block: the nine basis vectors as columns. -/
def basisBlock (v : Vec Ideal S16000x31 .f32) : FVec Ideal S16000x9 .f32 :=
  concatenate S16000x9 1
    [⟨S16000x1, shapeCast S16000x1 (k0_pay12 (F := Ideal)) shapeCasts_S16000_S16000x1⟩,
     ⟨S16000x1, shapeCast S16000x1 (k0_pay13 (F := Ideal) v) shapeCasts_S16000_S16000x1⟩,
     ⟨S16000x1, shapeCast S16000x1 (k0_pay14 (F := Ideal) v) shapeCasts_S16000_S16000x1⟩,
     ⟨S16000x1, shapeCast S16000x1 (k0_pay15 (F := Ideal) v) shapeCasts_S16000_S16000x1⟩,
     ⟨S16000x1, shapeCast S16000x1 (k0_pay16 (F := Ideal) v) shapeCasts_S16000_S16000x1⟩,
     ⟨S16000x1, shapeCast S16000x1 (k0_pay17 (F := Ideal) v) shapeCasts_S16000_S16000x1⟩,
     ⟨S16000x1, shapeCast S16000x1 (k0_pay18 (F := Ideal) v) shapeCasts_S16000_S16000x1⟩,
     ⟨S16000x1, shapeCast S16000x1 (k0_pay19 (F := Ideal) v) shapeCasts_S16000_S16000x1⟩,
     ⟨S16000x1, shapeCast S16000x1 (k0_pay20 (F := Ideal) v) shapeCasts_S16000_S16000x1⟩]
    concatenates_S16000x1_S16000x1_S16000x1_S16000x1_S16000x1_S16000x1_S16000x1_S16000x1_S16000x1_S16000x9_d1

/-- Entry (r, k) of the basis block is basis value k of row r's direction. -/
theorem basisBlock_apply (v : Vec Ideal S16000x31 .f32) (r : Fin 16000) (k : Fin 9) :
    basisBlock v (ix2 r k)
      = Cert.Spec.basis (v (ix2 r (28 : Fin 31))) (v (ix2 r (29 : Fin 31))) (v (ix2 r (30 : Fin 31))) k := by
  unfold basisBlock
  match k with
  | ⟨0, _⟩ =>
    refine (col_read _ _ r _ (by show (0 : ℕ) < 9; decide) _ rfl rfl).trans ?_
    refine (colCast_apply _ _ r 0).trans ?_
    exact pay12_val r
  | ⟨1, _⟩ =>
    refine (col_read _ _ r _ (by show (1 : ℕ) < 9; decide) _ rfl rfl).trans ?_
    refine (colCast_apply _ _ r 0).trans ?_
    exact pay13_val v r
  | ⟨2, _⟩ =>
    refine (col_read _ _ r _ (by show (2 : ℕ) < 9; decide) _ rfl rfl).trans ?_
    refine (colCast_apply _ _ r 0).trans ?_
    exact pay14_val v r
  | ⟨3, _⟩ =>
    refine (col_read _ _ r _ (by show (3 : ℕ) < 9; decide) _ rfl rfl).trans ?_
    refine (colCast_apply _ _ r 0).trans ?_
    exact pay15_val v r
  | ⟨4, _⟩ =>
    refine (col_read _ _ r _ (by show (4 : ℕ) < 9; decide) _ rfl rfl).trans ?_
    refine (colCast_apply _ _ r 0).trans ?_
    exact pay16_val v r
  | ⟨5, _⟩ =>
    refine (col_read _ _ r _ (by show (5 : ℕ) < 9; decide) _ rfl rfl).trans ?_
    refine (colCast_apply _ _ r 0).trans ?_
    exact pay17_val v r
  | ⟨6, _⟩ =>
    refine (col_read _ _ r _ (by show (6 : ℕ) < 9; decide) _ rfl rfl).trans ?_
    refine (colCast_apply _ _ r 0).trans ?_
    exact pay18_val v r
  | ⟨7, _⟩ =>
    refine (col_read _ _ r _ (by show (7 : ℕ) < 9; decide) _ rfl rfl).trans ?_
    refine (colCast_apply _ _ r 0).trans ?_
    exact pay19_val v r
  | ⟨8, _⟩ =>
    refine (col_read _ _ r _ (by show (8 : ℕ) < 9; decide) _ rfl rfl).trans ?_
    refine (colCast_apply _ _ r 0).trans ?_
    exact pay20_val v r

/-! ## A row's sum over the nine columns -/

/-- The index over row r with column k inserted is (r, k). -/
theorem lift_row (h : S16000x9.Reduces [1] S16000) (r : Fin 16000) (k : Fin 9) :
    h.lift (ix1 r) k = ix2 r k :=
  funext fun c => Fin.ext (by match c with | ⟨0, _⟩ => rfl | ⟨1, _⟩ => rfl)

/-- The lane sum of a 16000 × 9 block at row r is the sum of the row's nine entries. -/
theorem rowSum_apply (src : FVec Ideal S16000x9 .f32) (r : Fin 16000) :
    multiReduction .add [1] S16000 src 0x00000000#32 reduces_S16000x9_S16000 (.inl rfl) rfl (ix1 r)
      = ∑ k : Fin 9, src (ix2 r k) := by
  refine (Ideal.multiReduction_add_single src 0x00000000#32 reduces_S16000x9_S16000 (.inl rfl) rfl (ix1 r)).trans ?_
  exact Finset.sum_congr rfl fun k _ => congrArg src (lift_row _ r k)

/-! ## A colour column -/

/-- One colour column of the body, as a function of its coefficient block. -/
def colourVec (coef : FVec Ideal S16000x9 .f32) (v : Vec Ideal S16000x31 .f32) : FVec Ideal S16000 .f32 :=
  logistic (multiReduction .add [1] S16000 (mulf coef (basisBlock v)) 0x00000000#32 reduces_S16000x9_S16000 (.inl rfl) rfl)

/-- At row r it is the colour of the row's nine coefficients. -/
theorem colourVec_apply (coef : FVec Ideal S16000x9 .f32) (v : Vec Ideal S16000x31 .f32) (r : Fin 16000)
    (p : Fin 9 → EReal) (hp : ∀ k : Fin 9, coef (ix2 r k) = p k) :
    colourVec coef v (ix1 r)
      = Cert.Spec.colour p (v (ix2 r (28 : Fin 31))) (v (ix2 r (29 : Fin 31))) (v (ix2 r (30 : Fin 31))) := by
  show Ideal.logistic (multiReduction .add [1] S16000 (mulf coef (basisBlock v)) 0x00000000#32
      reduces_S16000x9_S16000 (.inl rfl) rfl (ix1 r))
    = Ideal.logistic (∑ k : Fin 9, p k
        * Cert.Spec.basis (v (ix2 r (28 : Fin 31))) (v (ix2 r (29 : Fin 31))) (v (ix2 r (30 : Fin 31))) k)
  refine congrArg Ideal.logistic ((rowSum_apply _ r).trans (Finset.sum_congr rfl fun k _ => ?_))
  show coef (ix2 r k) * basisBlock v (ix2 r k) = _
  rw [hp, basisBlock_apply]

/-! ## The density column -/

/-- The body's density column, as a function of the feature vector. -/
def softplusVec (a : FVec Ideal S16000 .f32) : FVec Ideal S16000 .f32 :=
  select
    (cmpf .one (subf a (broadcast S16000 (Scalar.ofBits .f32 0x00000000#32)))
      (subf a (broadcast S16000 (Scalar.ofBits .f32 0x00000000#32))))
    (addf a (broadcast S16000 (Scalar.ofBits .f32 0x00000000#32)))
    (addf (maximumf a (broadcast S16000 (Scalar.ofBits .f32 0x00000000#32)))
      (log1p (exp (subf (broadcast S16000 (Scalar.ofBits .f32 0x00000000#32))
        (absf (subf a (broadcast S16000 (Scalar.ofBits .f32 0x00000000#32))))))))

/-- No extended real differs from itself. -/
theorem cmp_one_self (d : EReal) : Ideal.cmp .one d d = 0#1 := by
  simp [Ideal.cmp]

/-- At row r it is the density of the row's feature: the comparison "d ≠ d" is false on the extended reals, so the
    select takes the softplus branch, and the zero word is the real zero. -/
theorem softplusVec_apply (a : FVec Ideal S16000 .f32) (r : Fin 16000) :
    softplusVec a (ix1 r) = Cert.Spec.density (a (ix1 r)) := by
  show Scalar.select (Ideal.cmp .one (a (ix1 r) - Cert.Spec.w32 0x00000000#32) (a (ix1 r) - Cert.Spec.w32 0x00000000#32))
      (a (ix1 r) + Cert.Spec.w32 0x00000000#32)
      (max (a (ix1 r)) (Cert.Spec.w32 0x00000000#32)
        + Ideal.log1p (Ideal.exp (Cert.Spec.w32 0x00000000#32
            - max (a (ix1 r) - Cert.Spec.w32 0x00000000#32) (-(a (ix1 r) - Cert.Spec.w32 0x00000000#32))))) = _
  rw [cmp_one_self, select_zero]
  unfold Cert.Spec.density
  rw [show Cert.Spec.w32 0x00000000#32 = 0 from Ideal.ofBits_zero_f32, zero_sub]

/-! ## The stored block -/

/-- The body's stored block is four columns side by side: three colours and the density. -/
theorem pay1_eq (v : Vec Ideal S16000x31 .f32) :
    k0_pay1 (F := Ideal) (k0_pay5 v) (k0_pay6 v) (k0_pay7 v) (k0_pay8 v) (k0_pay12 (F := Ideal)) (k0_pay13 v) (k0_pay14 v)
        (k0_pay15 v) (k0_pay16 v) (k0_pay17 v) (k0_pay18 v) (k0_pay19 v) (k0_pay20 v)
      = concatenate S16000x4 1
          [⟨S16000x1, shapeCast S16000x1 (colourVec (k0_pay6 (F := Ideal) v) v) shapeCasts_S16000_S16000x1⟩,
           ⟨S16000x1, shapeCast S16000x1 (colourVec (k0_pay7 (F := Ideal) v) v) shapeCasts_S16000_S16000x1⟩,
           ⟨S16000x1, shapeCast S16000x1 (colourVec (k0_pay8 (F := Ideal) v) v) shapeCasts_S16000_S16000x1⟩,
           ⟨S16000x1, shapeCast S16000x1 (softplusVec (k0_pay5 (F := Ideal) v)) shapeCasts_S16000_S16000x1⟩]
          concatenates_S16000x1_S16000x1_S16000x1_S16000x1_S16000x4_d1 := rfl

/-- Entry (r, j) of the body's stored block is result j of row r of the loaded block. -/
theorem rows_apply (v : Vec Ideal S16000x31 .f32) (r : Fin 16000) (j : Fin 4) :
    k0_pay1 (F := Ideal) (k0_pay5 v) (k0_pay6 v) (k0_pay7 v) (k0_pay8 v) (k0_pay12 (F := Ideal)) (k0_pay13 v) (k0_pay14 v)
        (k0_pay15 v) (k0_pay16 v) (k0_pay17 v) (k0_pay18 v) (k0_pay19 v) (k0_pay20 v) (ix2 r j)
      = Cert.Spec.out4 (fun c => v (ix2 r c)) j := by
  refine (congrFun (pay1_eq v) (ix2 r j)).trans ?_
  match j with
  | ⟨0, _⟩ =>
    refine (col_read _ _ r _ (by show (0 : ℕ) < 4; decide) _ rfl rfl).trans ?_
    refine (colCast_apply _ _ r 0).trans ?_
    refine (colourVec_apply (k0_pay6 (F := Ideal) v) v r
      (fun k => v (ix2 r ⟨1 + 9 * 0 + k.val, by have := k.isLt; omega⟩))
      (fun k => pay6_apply v r k _ (by show 1 + 9 * 0 + k.val = 1 + k.val; omega))).trans ?_
    rfl
  | ⟨1, _⟩ =>
    refine (col_read _ _ r _ (by show (1 : ℕ) < 4; decide) _ rfl rfl).trans ?_
    refine (colCast_apply _ _ r 0).trans ?_
    refine (colourVec_apply (k0_pay7 (F := Ideal) v) v r
      (fun k => v (ix2 r ⟨1 + 9 * 1 + k.val, by have := k.isLt; omega⟩))
      (fun k => pay7_apply v r k _ (by show 1 + 9 * 1 + k.val = 10 + k.val; omega))).trans ?_
    rfl
  | ⟨2, _⟩ =>
    refine (col_read _ _ r _ (by show (2 : ℕ) < 4; decide) _ rfl rfl).trans ?_
    refine (colCast_apply _ _ r 0).trans ?_
    refine (colourVec_apply (k0_pay8 (F := Ideal) v) v r
      (fun k => v (ix2 r ⟨1 + 9 * 2 + k.val, by have := k.isLt; omega⟩))
      (fun k => pay8_apply v r k _ (by show 1 + 9 * 2 + k.val = 19 + k.val; omega))).trans ?_
    rfl
  | ⟨3, _⟩ =>
    refine (col_read _ _ r _ (by show (3 : ℕ) < 4; decide) _ rfl rfl).trans ?_
    refine (colCast_apply _ _ r 0).trans ?_
    refine (softplusVec_apply _ r).trans ?_
    exact congrArg Cert.Spec.density (pay5_apply v r)

end Cert.KernelIdeal.RowValue

end
-- ==== Proof.KI.Packed.lean ====
/-
  From the region's blocks to the program's two results.

  Point t writes back rows 16000 t … 16000 t + 15999 of the packed result, each row the four results of the same
  row of the packed input (RowSpec.lean); the 125 blocks cover the array, so after the region the packed result is
  `Spec.G` of the packed input as the region found it. The two slices after the region then hand columns 0 … 2 and
  column 3 of it to the program's results.
-/
import proofs.«175109_j57191784513782_2_alg».proof.Proof.KI.Region
import proofs.«175109_j57191784513782_2_alg».proof.Proof.KI.RowValue
import proofs.«175109_j57191784513782_2_alg».proof.Proof.RowSpec
import Idealize.ShloMosaic.Lib.ValueIdx
import Idealize.ShloMosaic.Lib.Pipeline.Value
import Idealize.ShloMosaic.Lib.StableHlo.Run

set_option maxRecDepth 16384

noncomputable section

namespace Cert.KernelIdeal.Packed

open Cert.KernelIdeal Cert.KernelIdeal.Gen Cert.KernelIdeal.Host Cert.KernelIdeal.Body Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The zero offsets of a whole-block rectangle, as the constant function. -/
theorem zero_off : (![0, 0] : Fin 2 → Nat) = fun _ => 0 := funext fun a => by fin_cases a <;> rfl

/-- The two index maps over the grid: point t is at block (t, 0) of the input and of the output. -/
theorem index_at : ∀ t : Fin cfg0.N,
    win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, _)

/-- Entry (r, j) of the body's result on a block is result j of the block's row r. -/
theorem rows_entry (v : Vec Ideal S16000x31 .f32) (r : Fin 16000) (j : Fin 4) :
    Body.rows (F := Ideal) v (ix2 r j) = Cert.Spec.out4 (fun col => v (ix2 r col)) j := by
  unfold Body.rows
  exact Cert.KernelIdeal.RowValue.rows_apply v r j

/-- The body's one store covers the output block, and its one load reads the whole input block: the output
    block is the body's arithmetic on the input block. -/
theorem block_out_rows (x0 : Vec Ideal S16000x31 .f32) : blockOut x0 = Body.rows (F := Ideal) x0 := by
  unfold blockOut
  rw [View.canon_unit_zero zero_off]
  simp only [View.ld_unit_zero (S := S16000x31) zero_off]

/-- If a block v is rows 16000 T … 16000 T + 15999 of an array P, the body's result on v at (r, j) is the packed
    result of P at (16000 T + r, j). -/
theorem block_is_G (v : Vec Ideal S16000x31 .f32) (P : S2000000x31.Idx → EReal) (T : Nat)
    (hv : ∀ (x : S16000x31.Idx) (k : S2000000x31.Idx),
      (k 0).val = 16000 * T + (x 0).val → (k 1).val = (x 1).val → v x = P k)
    (y : S16000x4.Idx) (i : S2000000x4.Idx)
    (hi0 : (i 0).val = 16000 * T + (y 0).val) (hi1 : (i 1).val = (y 1).val) :
    Body.rows (F := Ideal) v y = Cert.Spec.G P i := by
  obtain ⟨r, j, rfl⟩ : ∃ (r : Fin 16000) (j : Fin 4), y = ix2 r j := ⟨y 0, y 1, eq_ix2 y⟩
  obtain ⟨R, j', rfl⟩ : ∃ (R : Fin 2000000) (j' : Fin 4), i = ix2 R j' := ⟨i 0, i 1, eq_ix2 i⟩
  have hR : R.val = 16000 * T + r.val := hi0
  have hj : j' = j := Fin.ext hi1
  subst hj
  refine (rows_entry v r j').trans ?_
  show Cert.Spec.out4 (fun col => v (ix2 r col)) j' = Cert.Spec.out4 (fun col => P (ix2 R col)) j'
  exact congrArg (fun p : Fin 31 → EReal => Cert.Spec.out4 p j')
    (funext fun col => hv (ix2 r col) (ix2 R col) hR rfl)

/-- Entry x of the input block at point t is the packed input, as the region found it, at row 16000 t + x₀ and
    column x₁. -/
theorem in_block_entry (c : Dev nD) (t : Fin cfg0.N) (x : S16000x31.Idx) (k : S2000000x31.Idx)
    (hk0 : (k 0).val = 16000 * t.val + (x 0).val) (hk1 : (k 1).val = (x 1).val) :
    (iblk m c 0 t : Vec Ideal S16000x31 .f32) x = (V m c main_v243 : S2000000x31.Idx → EReal) k := by
  obtain ⟨e0, e1, -, -⟩ := index_at t
  show V m c main_v243 (((cfg0.win 0).blk t).view.emb x) = V m c main_v243 k
  refine congrArg (V m c main_v243) ?_
  funext a
  apply Fin.ext
  match a with
  | ⟨0, _⟩ =>
    show win0_0.index t (0 : Fin 2) * 16000 + 1 * (x 0).val = (k 0).val
    omega
  | ⟨1, _⟩ =>
    show win0_0.index t (1 : Fin 2) * 31 + 1 * (x 1).val = (k 1).val
    omega

/-- What point t writes back is block t of the packed result of the packed input. -/
theorem written_back (c : Dev nD) (t : Fin cfg0.N) :
    (dats (F := Ideal) m 0 c).flushed 1 t
      = ((cfg0.win 1).blk t).view.read (Elt Ideal) (Cert.Spec.G (V m c main_v243)) := by
  show (cfg0.win 1).cut (grid0.coords t) ((dats (F := Ideal) m 0 c).after 1 t) = _
  rw [after_out, block_out_rows (iblk m c 0 t)]
  obtain ⟨-, -, e2, e3⟩ := index_at t
  funext y
  show Body.rows (F := Ideal) (iblk m c 0 t) y
    = Cert.Spec.G (V m c main_v243) (((cfg0.win 1).blk t).view.emb y)
  refine block_is_G (iblk m c 0 t) (V m c main_v243) t.val
    (fun x k h0 h1 => in_block_entry m c t x k h0 h1) y (((cfg0.win 1).blk t).view.emb y) ?_ ?_
  · show win0_1.index t (0 : Fin 2) * 16000 + 1 * (y 0).val = 16000 * t.val + (y 0).val
    omega
  · show win0_1.index t (1 : Fin 2) * 4 + 1 * (y 1).val = (y 1).val
    omega

/-- An index of the packed result is in point t's block iff each coordinate is in the block's range. -/
theorem out_blk_mem (t : Fin cfg0.N) (i : S2000000x4.Idx) :
    i ∈ ((cfg0.win 1).blk t).view.set ↔ ∀ a : Fin 2, win0_1.index t a * S16000x4.size a ≤ (i a).val
      ∧ (i a).val < win0_1.index t a * S16000x4.size a + S16000x4.size a := by
  show i ∈ ((View.whole main_v244).slice (win0_1.rect t)).set ↔ _
  rw [View.set_slice_whole, Rect.mem_set_unit]
  exact Iff.rfl

/-- Every row i of the packed result is written back by point i / 16000. -/
theorem out_covered (i : S2000000x4.Idx) :
    ∃ t : Fin cfg0.N, (cfg0.win 1).flush t = true ∧ i ∈ ((cfg0.win 1).blk t).view.set := by
  have hi0 : (i 0).val < 2000000 := (i 0).isLt
  have hi1 : (i 1).val < 4 := (i 1).isLt
  have hN : cfg0.N = 125 := N_0
  have hlt : (i 0).val / 16000 < cfg0.N := by rw [hN]; omega
  obtain ⟨t, ht⟩ : ∃ t : Fin cfg0.N, t.val = (i 0).val / 16000 := ⟨⟨(i 0).val / 16000, hlt⟩, rfl⟩
  obtain ⟨-, -, e2, e3⟩ := index_at t
  refine ⟨t, flush0_1 t, ?_⟩
  rw [out_blk_mem]
  intro a
  match a with
  | ⟨0, _⟩ =>
    show win0_1.index t (0 : Fin 2) * 16000 ≤ (i 0).val
      ∧ (i 0).val < win0_1.index t (0 : Fin 2) * 16000 + 16000
    omega
  | ⟨1, _⟩ =>
    show win0_1.index t (1 : Fin 2) * 4 ≤ (i 1).val ∧ (i 1).val < win0_1.index t (1 : Fin 2) * 4 + 4
    omega

/-- The packed result after the region, as one function of the packed input at the region's entry. -/
theorem packed_out (c : Dev nD) :
    (dats (F := Ideal) m 0 c).arrAt 1 cfg0.N = Cert.Spec.G (V m c main_v243) :=
  (dats (F := Ideal) m 0 c).arrAt_eq_of_cover 1 (Cert.Spec.G (V m c main_v243))
    (fun t _ => written_back m c t) out_covered

/-- The packed result's buffer, as the lines after the region find it. -/
theorem result_array (c : Dev nD) :
    Pipeline.withArrays spec0 c (V0 m c) (fun w => (dats (F := Ideal) m 0 c).arrAt w cfg0.N)
        (Proc.devRef .tc main_v244)
      = Cert.Spec.G (V m c main_v243) :=
  (Pipeline.withArrays_arr spec0 launch0.win.arr_inj c (V0 m c)
    (fun w => (dats (F := Ideal) m 0 c).arrAt w cfg0.N) 1).trans (packed_out m c)

/-- The first result is the slice of columns 0, 1, 2 of the packed result. -/
theorem colours_array (c : Dev nD) :
    Pipeline.afterTail₀ cfgs (dats (F := Ideal) m) 0 (V0 m) [hostOps1] c main_v245
      = extractStridedSlice (s := S2000000x4) S2000000x3 ![0, 0] (Cert.Spec.G (V m c main_v243))
          slices_S2000000x4_S2000000x3_0_0 := by
  unfold Pipeline.afterTail₀
  show StableHlo.after hostOps1 _ (Proc.devRef .tc main_v245) = _
  after_results
  exact congrArg (fun x => extractStridedSlice (s := S2000000x4) S2000000x3 ![0, 0] x
    slices_S2000000x4_S2000000x3_0_0) (result_array m c)

/-- The second result is the slice of column 3 of the packed result. -/
theorem density_array (c : Dev nD) :
    Pipeline.afterTail₀ cfgs (dats (F := Ideal) m) 0 (V0 m) [hostOps1] c main_v246
      = extractStridedSlice (s := S2000000x4) S2000000x1 ![0, 3] (Cert.Spec.G (V m c main_v243))
          slices_S2000000x4_S2000000x1_0_3 := by
  unfold Pipeline.afterTail₀
  show StableHlo.after hostOps1 _ (Proc.devRef .tc main_v246) = _
  after_results
  exact congrArg (fun x => extractStridedSlice (s := S2000000x4) S2000000x1 ![0, 3] x
    slices_S2000000x4_S2000000x1_0_3) (result_array m c)

/-- The first result (the colours): columns 0, 1, 2 of the packed result. -/
theorem res_rgb (c : Dev nD) (i : Fin 2000000) (j : Fin 3) :
    Pipeline.afterTail₀ cfgs (dats (F := Ideal) m) 0 (V0 m) [hostOps1] c main_v245 (ix2 i j)
      = Cert.Spec.G (V m c main_v243) (ix2 i ⟨j.val, by have := j.isLt; omega⟩) := by
  refine (congrFun (colours_array m c) (ix2 i j)).trans ?_
  refine extractStridedSlice_apply (s := S2000000x4) (t := S2000000x3) ![0, 0] (Cert.Spec.G (V m c main_v243))
    slices_S2000000x4_S2000000x3_0_0 (ix2 i j) (ix2 i ⟨j.val, by have := j.isLt; omega⟩) (fun a => ?_)
  match a with
  | ⟨0, _⟩ => show i.val = 0 + i.val; omega
  | ⟨1, _⟩ => show j.val = 0 + j.val; omega

/-- The second result (the density): column 3 of the packed result. -/
theorem res_sigma (c : Dev nD) (i : Fin 2000000) :
    Pipeline.afterTail₀ cfgs (dats (F := Ideal) m) 0 (V0 m) [hostOps1] c main_v246 (ix2 i 0)
      = Cert.Spec.G (V m c main_v243) (ix2 i 3) := by
  refine (congrFun (density_array m c) (ix2 i 0)).trans ?_
  refine extractStridedSlice_apply (s := S2000000x4) (t := S2000000x1) ![0, 3] (Cert.Spec.G (V m c main_v243))
    slices_S2000000x4_S2000000x1_0_3 (ix2 i 0) (ix2 i 3) (fun a => ?_)
  match a with
  | ⟨0, _⟩ => show i.val = 0 + i.val; omega
  | ⟨1, _⟩ => show (3 : Fin 4).val = 3 + (0 : Fin 1).val; rfl

end Cert.KernelIdeal.Packed

end
-- ==== Proof.KI.PackedInput.lean ====
/-
  The packed input of the region is the reference's features beside the reference's directions.

  Up to the packing, the idealized kernel's @main applies to its two arguments exactly the host operations the
  reference applies to its own: the scaling and clamping, the floor, the eight gathers and the seven linear
  interpolations (the reference's stage 239), and the division of the points by their norms (its stage 246).
  So the array the region's input window stages is the join, along the columns, of those two stages at the
  kernel's arguments. The chain is computed operation by operation, a join's operands at their own buffers, and never evaluated at an entry.
-/
import proofs.«175109_j57191784513782_2_alg».proof.Proof.KI.Host
import proofs.«175109_j57191784513782_2_alg».proof.Proof.RefStages
import proofs.«175109_j57191784513782_2_alg».proof.Proof.LibNaryResults
import proofs.«175109_j57191784513782_2_alg».proof.Proof.LibKernelRfl
import Idealize.ShloMosaic.Lib.StableHlo.Run

set_option maxRecDepth 65536

noncomputable section

namespace Cert.KernelIdeal.PackedInput

open Cert.KernelIdeal Cert.KernelIdeal.Gen Cert.KernelIdeal.Host
open Idealize.ShloMosaic Idealize.ShloMosaic.TcCoe Idealize.ShloMosaic.StableHlo Idealize.ShloMosaic.StableHlo.Nary
open Idealize.SL Idealize.SL.Sem

variable {F : FTy → Type} [FloatOps F]

variable (m : (ℓ : Loc nD τ sig) → Buf (Elt F) ℓ)

set_option maxHeartbeats 400000000 in
/-- The region's packed input, on core `c`: the reference's interpolated features and unit directions of the
    kernel's own arguments, joined along the columns. -/
theorem packed_in (c : Dev nD) :
    V m c main_v243
      = (concatenate S2000000x31 1
          [⟨S2000000x28, Cert.ReferenceIdeal.ReadP.val_main_v239 (F := F) (m ((c : Thread nD τ).loc main_arg0)) (m ((c : Thread nD τ).loc main_arg1))⟩,
           ⟨S2000000x3, Cert.ReferenceIdeal.ReadP.val_main_v246 (F := F) (m ((c : Thread nD τ).loc main_arg0))⟩]
          concatenates_S2000000x28_S2000000x3_S2000000x31_d1 : Buf (Elt F) ((c : Thread nD τ).loc main_v243)) := by
  dsimp only [V, V0]
  simp only [hostOps0, hostOps0_1, hostOps0_2, hostOps0_3, hostOps0_4, List.flatten_cons, List.flatten_nil, List.append_nil,
    List.cons_append, List.nil_append]
  after_results_lit
  try simp only [TRef.ofBuf, TRef.toBuf, cast_eq]
  kernel_rfl

end Cert.KernelIdeal.PackedInput

end
-- ==== Proof.RefTail.lean ====
/-
  The reference's last stages, read one entry at a time.

  After the shared interpolation (the 2000000 × 28 feature array, stage 239) and the unit directions (the
  2000000 × 3 array, stage 246), the reference's colour (i, j) is the logistic of the sum over k of feature
  (i, 1 + 9 j + k) times basis value k of direction i, and its density (i, 0) the softplus of feature (i, 0)
  (RowSpec.lean). The two arrays stay folded: nothing here opens the interpolation or the norm.
-/
import proofs.«175109_j57191784513782_2_alg».proof.Proof.RefStages
import proofs.«175109_j57191784513782_2_alg».proof.Proof.RowSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Tail

open Cert.ReferenceIdeal Cert.ReferenceIdeal.Gen Cert.ReferenceIdeal.ReadP
open Idealize.ShloMosaic Idealize.ShloMosaic.TcCoe Idealize.ShloMosaic.ValueIdx

variable (x0 : (⟨S2000000x3, .f32⟩ : BufTy).Contents (Elt Ideal)) (x1 : (⟨S192x192x192x28, .f32⟩ : BufTy).Contents (Elt Ideal))

/-! ## Scalars: the comparison of a value with itself, the logistic and the softplus as the programs spell them -/

/-- An extended real does not differ from itself: the comparison "unordered or not equal" of a value with itself is the
    bit 0. -/
theorem cmp_une_self (d : EReal) : Ideal.cmp .une d d = 0#1 := by
  simp [Ideal.cmp]

/-- One over (one plus the exponential of the negation), the ones as the word 0x3F800000, is the logistic. -/
theorem logistic_words (s : Ideal .f32) :
    FloatOps.hostDivf (F := Ideal) (FloatOps.ofBits (F := Ideal) .f32 0x3F800000#32)
        (FloatOps.addf (F := Ideal) (FloatOps.ofBits (F := Ideal) .f32 0x3F800000#32)
          (FloatOps.hostUnary (F := Ideal) .exp (FloatOps.hostNegf (F := Ideal) s)))
      = Ideal.logistic s := by
  have h1 : Ideal.ofBits .f32 0x3F800000#32 = (1 : EReal) := Ideal.ofBits_one_f32
  show Ideal.div (Ideal.ofBits .f32 0x3F800000#32) (Ideal.ofBits .f32 0x3F800000#32 + Ideal.exp (-s))
    = Ideal.div 1 (1 + Ideal.exp (-s))
  exact congrArg (fun c : EReal => Ideal.div c (c + Ideal.exp (-s))) h1

/-- The softplus as the reference spells it: the select on "a − 0 differs from itself" takes its second branch, which is
    max(a, 0) + log1p(exp(−|a − 0|)) with |d| = max(d, −d). -/
theorem softplus_words (a : Ideal .f32) :
    Scalar.select
        (FloatOps.cmpf (F := Ideal) .une
          (FloatOps.subf (F := Ideal) a (FloatOps.ofBits (F := Ideal) .f32 0x00000000#32))
          (FloatOps.subf (F := Ideal) a (FloatOps.ofBits (F := Ideal) .f32 0x00000000#32)))
        (FloatOps.addf (F := Ideal) a (FloatOps.ofBits (F := Ideal) .f32 0x00000000#32))
        (FloatOps.addf (F := Ideal)
          (FloatOps.maximumf (F := Ideal) a (FloatOps.ofBits (F := Ideal) .f32 0x00000000#32))
          (FloatOps.hostUnary (F := Ideal) .log1p (FloatOps.hostUnary (F := Ideal) .exp (FloatOps.hostNegf (F := Ideal)
            (FloatOps.hostAbsf (F := Ideal)
              (FloatOps.subf (F := Ideal) a (FloatOps.ofBits (F := Ideal) .f32 0x00000000#32)))))))
      = Cert.Spec.density a := by
  rw [Ideal.cmpf_def, cmp_une_self, select_zero]
  rfl

/-! ## The direction's three components, read from a vector index whose coordinate is the point -/

/-- Component x: column 0 of the direction array. -/
theorem dirx (i : Fin 2000000) (J : S2000000.Idx) (hJ : (J 0).val = i.val) :
    val_main_v248 (F := Ideal) x0 J = val_main_v246 (F := Ideal) x0 (ix2 i 0) := by
  rw [val_main_v248_apply, val_main_v247_apply]
  refine congrArg (val_main_v246 (F := Ideal) x0) (funext fun a => Fin.ext ?_)
  match a with
  | ⟨0, _⟩ => show (J 0).val / 1 = i.val; rw [Nat.div_one]; exact hJ
  | ⟨1, _⟩ => rfl

/-- Component y: column 1 of the direction array. -/
theorem diry (i : Fin 2000000) (J : S2000000.Idx) (hJ : (J 0).val = i.val) :
    val_main_v250 (F := Ideal) x0 J = val_main_v246 (F := Ideal) x0 (ix2 i 1) := by
  rw [val_main_v250_apply, val_main_v249_apply]
  refine congrArg (val_main_v246 (F := Ideal) x0) (funext fun a => Fin.ext ?_)
  match a with
  | ⟨0, _⟩ => show (J 0).val / 1 = i.val; rw [Nat.div_one]; exact hJ
  | ⟨1, _⟩ => rfl

/-- Component z: column 2 of the direction array. -/
theorem dirz (i : Fin 2000000) (J : S2000000.Idx) (hJ : (J 0).val = i.val) :
    val_main_v252 (F := Ideal) x0 J = val_main_v246 (F := Ideal) x0 (ix2 i 2) := by
  rw [val_main_v252_apply, val_main_v251_apply]
  refine congrArg (val_main_v246 (F := Ideal) x0) (funext fun a => Fin.ext ?_)
  match a with
  | ⟨0, _⟩ => show (J 0).val / 1 = i.val; rw [Nat.div_one]; exact hJ
  | ⟨1, _⟩ => rfl

/-! ## The nine basis vectors at a vector index, as functions of the three components read there -/

/-- Basis value 0 is the product of two constants. -/
theorem col0 (J : S2000000.Idx) {X Y Z : EReal} :
    val_main_v255 (F := Ideal) J = Cert.Spec.basis X Y Z ⟨0, by omega⟩ := by
  rw [val_main_v255_apply, val_main_v254_apply, val_main_cst_62_apply, val_main_v253_apply, val_main_cst_61_apply]
  rfl

/-- Basis value 1 is a constant times y. -/
theorem col1 (J : S2000000.Idx) {X Y Z : EReal} (hy : val_main_v250 (F := Ideal) x0 J = Y) :
    val_main_v257 (F := Ideal) x0 J = Cert.Spec.basis X Y Z ⟨1, by omega⟩ := by
  rw [val_main_v257_apply, val_main_v256_apply, val_main_cst_63_apply, hy]
  rfl

/-- Basis value 2 is a constant times z. -/
theorem col2 (J : S2000000.Idx) {X Y Z : EReal} (hz : val_main_v252 (F := Ideal) x0 J = Z) :
    val_main_v259 (F := Ideal) x0 J = Cert.Spec.basis X Y Z ⟨2, by omega⟩ := by
  rw [val_main_v259_apply, val_main_v258_apply, val_main_cst_64_apply, hz]
  rfl

/-- Basis value 3 is a constant times x. -/
theorem col3 (J : S2000000.Idx) {X Y Z : EReal} (hx : val_main_v248 (F := Ideal) x0 J = X) :
    val_main_v261 (F := Ideal) x0 J = Cert.Spec.basis X Y Z ⟨3, by omega⟩ := by
  rw [val_main_v261_apply, val_main_v260_apply, val_main_cst_65_apply, hx]
  rfl

/-- Basis value 4 is a constant times x times y. -/
theorem col4 (J : S2000000.Idx) {X Y Z : EReal} (hx : val_main_v248 (F := Ideal) x0 J = X) (hy : val_main_v250 (F := Ideal) x0 J = Y) :
    val_main_v264 (F := Ideal) x0 J = Cert.Spec.basis X Y Z ⟨4, by omega⟩ := by
  rw [val_main_v264_apply, val_main_v263_apply, val_main_v262_apply, val_main_cst_66_apply, hx, hy]
  rfl

/-- Basis value 5 is a constant times y times z. -/
theorem col5 (J : S2000000.Idx) {X Y Z : EReal} (hy : val_main_v250 (F := Ideal) x0 J = Y) (hz : val_main_v252 (F := Ideal) x0 J = Z) :
    val_main_v267 (F := Ideal) x0 J = Cert.Spec.basis X Y Z ⟨5, by omega⟩ := by
  rw [val_main_v267_apply, val_main_v266_apply, val_main_v265_apply, val_main_cst_67_apply, hy, hz]
  rfl

/-- Basis value 6 is a constant times (3 z z − 1), the 3 and the 1 as their words. -/
theorem col6 (J : S2000000.Idx) {X Y Z : EReal} (hz : val_main_v252 (F := Ideal) x0 J = Z) :
    val_main_v274 (F := Ideal) x0 J = Cert.Spec.basis X Y Z ⟨6, by omega⟩ := by
  rw [val_main_v274_apply, val_main_v273_apply, val_main_cst_70_apply, val_main_v272_apply, val_main_v270_apply,
    val_main_v269_apply, val_main_v268_apply, val_main_cst_68_apply, val_main_v271_apply, val_main_cst_69_apply, hz]
  rfl

/-- Basis value 7 is a constant times x times z. -/
theorem col7 (J : S2000000.Idx) {X Y Z : EReal} (hx : val_main_v248 (F := Ideal) x0 J = X) (hz : val_main_v252 (F := Ideal) x0 J = Z) :
    val_main_v277 (F := Ideal) x0 J = Cert.Spec.basis X Y Z ⟨7, by omega⟩ := by
  rw [val_main_v277_apply, val_main_v276_apply, val_main_v275_apply, val_main_cst_71_apply, hx, hz]
  rfl

/-- Basis value 8 is a constant times (x x − y y). -/
theorem col8 (J : S2000000.Idx) {X Y Z : EReal} (hx : val_main_v248 (F := Ideal) x0 J = X) (hy : val_main_v250 (F := Ideal) x0 J = Y) :
    val_main_v282 (F := Ideal) x0 J = Cert.Spec.basis X Y Z ⟨8, by omega⟩ := by
  rw [val_main_v282_apply, val_main_v281_apply, val_main_cst_72_apply, val_main_v280_apply, val_main_v278_apply,
    val_main_v279_apply, hx, hy]
  rfl

/-! ## The basis array: nine unit columns side by side -/

/-- Off the joined axis a column's index (i, 0) and the array's index (i, k) agree: both have the point i on axis 0. -/
theorem offAxis (i : Fin 2000000) (k : Fin 9) (hr : S2000000x1.rank = S2000000x9.rank) :
    ∀ b : Fin S2000000x1.rank, b.cast hr ≠ (1 : Fin S2000000x9.rank) →
      ((ix2 i (0 : Fin 1) : S2000000x1.Idx) b).val = ((ix2 i k : S2000000x9.Idx) (b.cast hr)).val := by
  intro b
  match b with
  | ⟨0, _⟩ => intro _; rfl
  | ⟨1, _⟩ => intro hb; exact absurd (Fin.ext rfl) hb

/-- Entry (i, k) of the nine joined columns is basis value k of direction i: column k starts k places along the joined
    axis, each column before it having extent one. -/
theorem basis_apply (i : Fin 2000000) (k : Fin 9) :
    val_main_v292 (F := Ideal) x0 (ix2 i k)
      = Cert.Spec.basis (val_main_v246 (F := Ideal) x0 (ix2 i 0)) (val_main_v246 (F := Ideal) x0 (ix2 i 1)) (val_main_v246 (F := Ideal) x0 (ix2 i 2)) k := by
  unfold val_main_v292
  match k with
  | ⟨0, _⟩ =>
    refine (concatenate_apply_piece (t := S2000000x9) (1 : Fin S2000000x9.rank) _ _ (ix2 i ⟨0, by omega⟩) 0 (by simp)
      S2000000x1 (val_main_v283 (F := Ideal)) (by rfl) (by rfl) 0 (by rfl) (ix2 i 0)
      (offAxis i ⟨0, by omega⟩ _) (by rfl)).trans ?_
    rw [val_main_v283_apply]
    exact col0 (idx_main_v283 (ix2 i 0))
  | ⟨1, _⟩ =>
    refine (concatenate_apply_piece (t := S2000000x9) (1 : Fin S2000000x9.rank) _ _ (ix2 i ⟨1, by omega⟩) 1 (by simp)
      S2000000x1 (val_main_v284 (F := Ideal) x0) (by rfl) (by rfl) 1 (by rfl) (ix2 i 0)
      (offAxis i ⟨1, by omega⟩ _) (by rfl)).trans ?_
    rw [val_main_v284_apply]
    exact col1 x0 (idx_main_v284 (ix2 i 0)) (diry x0 i (idx_main_v284 (ix2 i 0)) rfl)
  | ⟨2, _⟩ =>
    refine (concatenate_apply_piece (t := S2000000x9) (1 : Fin S2000000x9.rank) _ _ (ix2 i ⟨2, by omega⟩) 2 (by simp)
      S2000000x1 (val_main_v285 (F := Ideal) x0) (by rfl) (by rfl) 2 (by rfl) (ix2 i 0)
      (offAxis i ⟨2, by omega⟩ _) (by rfl)).trans ?_
    rw [val_main_v285_apply]
    exact col2 x0 (idx_main_v285 (ix2 i 0)) (dirz x0 i (idx_main_v285 (ix2 i 0)) rfl)
  | ⟨3, _⟩ =>
    refine (concatenate_apply_piece (t := S2000000x9) (1 : Fin S2000000x9.rank) _ _ (ix2 i ⟨3, by omega⟩) 3 (by simp)
      S2000000x1 (val_main_v286 (F := Ideal) x0) (by rfl) (by rfl) 3 (by rfl) (ix2 i 0)
      (offAxis i ⟨3, by omega⟩ _) (by rfl)).trans ?_
    rw [val_main_v286_apply]
    exact col3 x0 (idx_main_v286 (ix2 i 0)) (dirx x0 i (idx_main_v286 (ix2 i 0)) rfl)
  | ⟨4, _⟩ =>
    refine (concatenate_apply_piece (t := S2000000x9) (1 : Fin S2000000x9.rank) _ _ (ix2 i ⟨4, by omega⟩) 4 (by simp)
      S2000000x1 (val_main_v287 (F := Ideal) x0) (by rfl) (by rfl) 4 (by rfl) (ix2 i 0)
      (offAxis i ⟨4, by omega⟩ _) (by rfl)).trans ?_
    rw [val_main_v287_apply]
    exact col4 x0 (idx_main_v287 (ix2 i 0)) (dirx x0 i (idx_main_v287 (ix2 i 0)) rfl) (diry x0 i (idx_main_v287 (ix2 i 0)) rfl)
  | ⟨5, _⟩ =>
    refine (concatenate_apply_piece (t := S2000000x9) (1 : Fin S2000000x9.rank) _ _ (ix2 i ⟨5, by omega⟩) 5 (by simp)
      S2000000x1 (val_main_v288 (F := Ideal) x0) (by rfl) (by rfl) 5 (by rfl) (ix2 i 0)
      (offAxis i ⟨5, by omega⟩ _) (by rfl)).trans ?_
    rw [val_main_v288_apply]
    exact col5 x0 (idx_main_v288 (ix2 i 0)) (diry x0 i (idx_main_v288 (ix2 i 0)) rfl) (dirz x0 i (idx_main_v288 (ix2 i 0)) rfl)
  | ⟨6, _⟩ =>
    refine (concatenate_apply_piece (t := S2000000x9) (1 : Fin S2000000x9.rank) _ _ (ix2 i ⟨6, by omega⟩) 6 (by simp)
      S2000000x1 (val_main_v289 (F := Ideal) x0) (by rfl) (by rfl) 6 (by rfl) (ix2 i 0)
      (offAxis i ⟨6, by omega⟩ _) (by rfl)).trans ?_
    rw [val_main_v289_apply]
    exact col6 x0 (idx_main_v289 (ix2 i 0)) (dirz x0 i (idx_main_v289 (ix2 i 0)) rfl)
  | ⟨7, _⟩ =>
    refine (concatenate_apply_piece (t := S2000000x9) (1 : Fin S2000000x9.rank) _ _ (ix2 i ⟨7, by omega⟩) 7 (by simp)
      S2000000x1 (val_main_v290 (F := Ideal) x0) (by rfl) (by rfl) 7 (by rfl) (ix2 i 0)
      (offAxis i ⟨7, by omega⟩ _) (by rfl)).trans ?_
    rw [val_main_v290_apply]
    exact col7 x0 (idx_main_v290 (ix2 i 0)) (dirx x0 i (idx_main_v290 (ix2 i 0)) rfl) (dirz x0 i (idx_main_v290 (ix2 i 0)) rfl)
  | ⟨8, _⟩ =>
    refine (concatenate_apply_piece (t := S2000000x9) (1 : Fin S2000000x9.rank) _ _ (ix2 i ⟨8, by omega⟩) 8 (by simp)
      S2000000x1 (val_main_v291 (F := Ideal) x0) (by rfl) (by rfl) 8 (by rfl) (ix2 i 0)
      (offAxis i ⟨8, by omega⟩ _) (by rfl)).trans ?_
    rw [val_main_v291_apply]
    exact col8 x0 (idx_main_v291 (ix2 i 0)) (dirx x0 i (idx_main_v291 (ix2 i 0)) rfl) (diry x0 i (idx_main_v291 (ix2 i 0)) rfl)

/-! ## The coefficients, the sum over the nine basis values, and the two results -/

/-- Entry (i, j, k) of the reshaped coefficients is feature (i, 1 + 9 j + k): the row-major position (3 i + j) 9 + k of
    the 2000000 × 3 × 9 array is 27 i + (9 j + k) in the 2000000 × 27 array, one column past which the slice starts. -/
theorem coef_apply (i : Fin 2000000) (j : Fin 3) (k : Fin 9) :
    val_main_v243 (F := Ideal) x0 x1 (idx_main_v296 (ix2 i j) k)
      = val_main_v239 (F := Ideal) x0 x1 (ix2 i ⟨1 + 9 * j.val + k.val, by have := j.isLt; have := k.isLt; omega⟩) := by
  rw [val_main_v243_apply, val_main_v242_apply]
  refine congrArg (val_main_v239 (F := Ideal) x0 x1) (funext fun a => Fin.ext ?_)
  have hj := j.isLt
  have hk := k.isLt
  match a with
  | ⟨0, _⟩ => show ((i.val * 3 + j.val) * 9 + k.val) / 27 = i.val; omega
  | ⟨1, _⟩ => show 1 + ((i.val * 3 + j.val) * 9 + k.val) % 27 = 1 + 9 * j.val + k.val; omega

/-- The two broadcasts of the basis array to 2000000 × 3 × 9 forget the middle coordinate. -/
theorem bidx (i : Fin 2000000) (j : Fin 3) (k : Fin 9) :
    idx_main_v293 (idx_main_v294 (idx_main_v296 (ix2 i j) k)) = ix2 i k :=
  funext fun a => Fin.ext (by match a with | ⟨0, _⟩ => rfl | ⟨1, _⟩ => rfl)

/-- The reduced sum (i, j): the initial value is the word of zero, so what is left is the sum over k of feature
    (i, 1 + 9 j + k) times basis value k of direction i. -/
theorem sum_apply (i : Fin 2000000) (j : Fin 3) :
    val_main_v296 (F := Ideal) x0 x1 (ix2 i j)
      = ∑ k : Fin 9, val_main_v239 (F := Ideal) x0 x1 (ix2 i ⟨1 + 9 * j.val + k.val, by have := j.isLt; have := k.isLt; omega⟩)
          * Cert.Spec.basis (val_main_v246 (F := Ideal) x0 (ix2 i 0)) (val_main_v246 (F := Ideal) x0 (ix2 i 1)) (val_main_v246 (F := Ideal) x0 (ix2 i 2)) k := by
  rw [val_main_v296_apply, val_main_cst_73_apply]
  show Ideal.ofBits .f32 0x00000000#32 + _ = _
  rw [Ideal.ofBits_zero_f32, zero_add]
  refine Finset.sum_congr rfl fun k _ => ?_
  rw [val_main_v295_apply, coef_apply x0 x1 i j k, val_main_v294_apply, val_main_v293_apply, bidx i j k, basis_apply x0 i k]
  rfl

/-- Feature (i, 0) read through the column slice, its reshape to a vector and the vector index of point i. -/
theorem feat0 (i : Fin 2000000) :
    val_main_v241 (F := Ideal) x0 x1 (idx_main_v304 (ix2 i 0)) = val_main_v239 (F := Ideal) x0 x1 (ix2 i 0) := by
  rw [val_main_v241_apply, val_main_v240_apply]
  refine congrArg (val_main_v239 (F := Ideal) x0 x1) (funext fun a => Fin.ext ?_)
  match a with
  | ⟨0, _⟩ => show i.val / 1 = i.val; exact Nat.div_one _
  | ⟨1, _⟩ => rfl

/-- Colour j of point i. -/
theorem rgb_apply (i : Fin 2000000) (j : Fin 3) :
    val_main_v302 (F := Ideal) x0 x1 (ix2 i j)
      = Cert.Spec.colour (fun k => val_main_v239 (F := Ideal) x0 x1 (ix2 i ⟨1 + 9 * j.val + k.val, by have := j.isLt; have := k.isLt; omega⟩))
          (val_main_v246 (F := Ideal) x0 (ix2 i 0)) (val_main_v246 (F := Ideal) x0 (ix2 i 1)) (val_main_v246 (F := Ideal) x0 (ix2 i 2)) := by
  rw [val_main_v302_apply, val_main_v301_apply, val_main_cst_75_apply, val_main_v300_apply, val_main_v299_apply,
    val_main_cst_74_apply, val_main_v298_apply, val_main_v297_apply, sum_apply x0 x1 i j]
  refine (logistic_words _).trans ?_
  rfl

/-- The density of point i. -/
theorem sigma_apply (i : Fin 2000000) :
    val_main_v304 (F := Ideal) x0 x1 (ix2 i 0) = Cert.Spec.density (val_main_v239 (F := Ideal) x0 x1 (ix2 i 0)) := by
  rw [val_main_v304_apply, val_main_v303_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, feat0 x0 x1 i]
  simp only [val_main_call2_cst_apply]
  exact softplus_words _

end Cert.ReferenceIdeal.Tail

end
-- ==== Proof.PackedRow.lean ====
/-
  A packed row is a feature row beside a direction row.

  The packed 2000000 × 31 array is the 2000000 × 28 feature array joined along the columns with the 2000000 × 3
  direction array: column c of a row is feature column c for c < 28 and direction column c − 28 otherwise. So
  the four results of a packed row are: colour j the logistic sum of feature columns 1 + 9 j … 9 + 9 j against
  the basis of the row's direction, and the density the softplus of feature column 0.
-/
import proofs.«175109_j57191784513782_2_alg».proof.Proof.RowSpec
import Idealize.ShloMosaic.Lib.ValueIdx
import Idealize.ShloMosaic.Lib.Pipeline.Value

noncomputable section

namespace Cert.Spec

open Idealize.ShloMosaic Idealize.ShloMosaic.ValueIdx

abbrev Sfeat : Shape := ⟨2, ![2000000, 28]⟩
abbrev Sdir : Shape := ⟨2, ![2000000, 3]⟩
abbrev Spack : Shape := ⟨2, ![2000000, 31]⟩

variable (X : Sfeat.Idx → EReal) (D : Sdir.Idx → EReal) (h : Shape.Concatenates [Sfeat, Sdir] Spack 1)

/-- A column below 28 of the packed array is that feature column. -/
theorem packed_feat (a : Fin 2000000) (c : Fin 31) (hc : c.val < 28) :
    concatenate Spack 1 [⟨Sfeat, X⟩, ⟨Sdir, D⟩] h (ix2 a c) = X (ix2 a ⟨c.val, hc⟩) :=
  concatenate_pair_apply_left (1 : Fin Spack.rank) X D h (ix2 a c) rfl (ix2 a ⟨c.val, hc⟩)
    (fun b => by match b with | ⟨0, _⟩ => rfl | ⟨1, _⟩ => rfl)

/-- A column from 28 on is direction column c − 28. -/
theorem packed_dir (a : Fin 2000000) (c : Fin 31) (hc : 28 ≤ c.val) :
    concatenate Spack 1 [⟨Sfeat, X⟩, ⟨Sdir, D⟩] h (ix2 a c) = D (ix2 a ⟨c.val - 28, by have := c.isLt; omega⟩) :=
  concatenate_pair_apply_right (1 : Fin Spack.rank) X D h (ix2 a c) rfl rfl (ix2 a ⟨c.val - 28, by have := c.isLt; omega⟩)
    (fun b hb => by
      match b with
      | ⟨0, _⟩ => rfl
      | ⟨1, _⟩ => exact absurd rfl hb)
    (by show (c.val - 28) + 28 = c.val; omega)

/-- Colour j of row a of the packed result, from the two halves of the packed input. -/
theorem G_rgb (a : Fin 2000000) (j : Fin 3) :
    G (concatenate Spack 1 [⟨Sfeat, X⟩, ⟨Sdir, D⟩] h) (ix2 a ⟨j.val, by have := j.isLt; omega⟩)
      = colour (fun k => X (ix2 a ⟨1 + 9 * j.val + k.val, by have := j.isLt; have := k.isLt; omega⟩))
          (D (ix2 a 0)) (D (ix2 a 1)) (D (ix2 a 2)) := by
  have hj := j.isLt
  have e28 : concatenate Spack 1 [⟨Sfeat, X⟩, ⟨Sdir, D⟩] h (ix2 a 28) = D (ix2 a 0) := packed_dir X D h a 28 (by decide)
  have e29 : concatenate Spack 1 [⟨Sfeat, X⟩, ⟨Sdir, D⟩] h (ix2 a 29) = D (ix2 a 1) := packed_dir X D h a 29 (by decide)
  have e30 : concatenate Spack 1 [⟨Sfeat, X⟩, ⟨Sdir, D⟩] h (ix2 a 30) = D (ix2 a 2) := packed_dir X D h a 30 (by decide)
  show out4 (fun c => concatenate Spack 1 [⟨Sfeat, X⟩, ⟨Sdir, D⟩] h (ix2 a c)) ⟨j.val, _⟩ = _
  unfold out4
  rw [dif_pos (show (⟨j.val, by omega⟩ : Fin 4).val < 3 from hj)]
  unfold rgb
  dsimp only
  rw [e28, e29, e30]
  refine congrArg (fun f => colour f _ _ _) (funext fun k => ?_)
  have hk := k.isLt
  exact packed_feat X D h a ⟨1 + 9 * j.val + k.val, by omega⟩ (by show 1 + 9 * j.val + k.val < 28; omega)

/-- The density of row a of the packed result. -/
theorem G_sigma (a : Fin 2000000) :
    G (concatenate Spack 1 [⟨Sfeat, X⟩, ⟨Sdir, D⟩] h) (ix2 a 3) = density (X (ix2 a 0)) := by
  have e0 : concatenate Spack 1 [⟨Sfeat, X⟩, ⟨Sdir, D⟩] h (ix2 a 0) = X (ix2 a 0) := packed_feat X D h a 0 (by decide)
  show out4 (fun c => concatenate Spack 1 [⟨Sfeat, X⟩, ⟨Sdir, D⟩] h (ix2 a c)) 3 = _
  unfold out4
  rw [dif_neg (show ¬ ((3 : Fin 4).val < 3) by decide)]
  dsimp only
  rw [e0]

end Cert.Spec

end
-- ==== Proof.Bridge.lean ====
/-
  The two idealized programs compute the same results.

  Kernel side: after the run the first result is columns 0 … 2 and the second column 3 of the packed result, which
  is row by row the four results of the packed input, and the packed input is the reference's features (stage 239)
  beside the reference's unit directions (stage 246) of the kernel's arguments. Reference side: its first result
  at (i, j) is the logistic of the sum of features (i, 1 + 9 j + k) against the basis of direction i, and its
  second at (i, 0) the softplus of feature (i, 0). A packed row being a feature row beside a direction row, the
  two agree entry by entry. No law of the extended reals beyond 0 + s = s and 0 − u = −u is used, so the
  finiteness of the inputs is never opened.
-/
import proofs.«175109_j57191784513782_2_alg».proof.Defs
import proofs.«175109_j57191784513782_2_alg».proof.Proof.Gen.Pre_finite_inputs
import proofs.«175109_j57191784513782_2_alg».proof.Proof.Gen.KernelIdeal
import proofs.«175109_j57191784513782_2_alg».proof.Proof.Gen.ReferenceIdeal
import proofs.«175109_j57191784513782_2_alg».proof.Proof.KI.Region
import proofs.«175109_j57191784513782_2_alg».proof.Proof.KI.Packed
import proofs.«175109_j57191784513782_2_alg».proof.Proof.KI.PackedInput
import proofs.«175109_j57191784513782_2_alg».proof.Proof.RefValue
import proofs.«175109_j57191784513782_2_alg».proof.Proof.RefTail
import proofs.«175109_j57191784513782_2_alg».proof.Proof.PackedRow

set_option maxRecDepth 16384

noncomputable section

namespace Cert.Proof.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The kernel's first result is the reference's stage 302 of the kernel's arguments. -/
theorem rgb_eq (c : Dev Cert.KernelIdeal.nD) :
    Pipeline.afterTail₀ Cert.KernelIdeal.cfgs (Cert.KernelIdeal.Region.dats (F := Ideal) m) 0 (Cert.KernelIdeal.Host.V0 m)
        [Cert.KernelIdeal.Gen.hostOps1] c Cert.KernelIdeal.main_v245
      = Cert.ReferenceIdeal.ReadP.val_main_v302 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨a, b, rfl⟩ : ∃ (a : Fin 2000000) (b : Fin 3), i = ix2 a b := ⟨i 0, i 1, eq_ix2 i⟩
  rw [Cert.KernelIdeal.Packed.res_rgb, Cert.KernelIdeal.PackedInput.packed_in, Cert.ReferenceIdeal.Tail.rgb_apply]
  exact Cert.Spec.G_rgb _ _ _ a b

/-- The kernel's second result is the reference's stage 304 of the kernel's arguments. -/
theorem sigma_eq (c : Dev Cert.KernelIdeal.nD) :
    Pipeline.afterTail₀ Cert.KernelIdeal.cfgs (Cert.KernelIdeal.Region.dats (F := Ideal) m) 0 (Cert.KernelIdeal.Host.V0 m)
        [Cert.KernelIdeal.Gen.hostOps1] c Cert.KernelIdeal.main_v246
      = Cert.ReferenceIdeal.ReadP.val_main_v304 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨a, b, rfl⟩ : ∃ (a : Fin 2000000) (b : Fin 1), i = ix2 a b := ⟨i 0, i 1, eq_ix2 i⟩
  obtain rfl : b = 0 := Subsingleton.elim _ _
  rw [Cert.KernelIdeal.Packed.res_sigma, Cert.KernelIdeal.PackedInput.packed_in, Cert.ReferenceIdeal.Tail.sigma_apply]
  exact Cert.Spec.G_sigma _ _ _ a

/-- Run from memories that agree on the arguments, both idealized programs end, with equal results and unchanged arguments. -/
theorem algebraic : Cert.algebraic_KernelIdeal_ReferenceIdeal := by
  intro m ρ m' ρ' _ hagree
  refine ⟨fun c => Pipeline.afterTail₀ Cert.KernelIdeal.cfgs (Cert.KernelIdeal.Region.dats (F := Ideal) m) 0 (Cert.KernelIdeal.Host.V0 m)
            [Cert.KernelIdeal.Gen.hostOps1] c Cert.KernelIdeal.main_v245,
          fun c => Pipeline.afterTail₀ Cert.KernelIdeal.cfgs (Cert.KernelIdeal.Region.dats (F := Ideal) m) 0 (Cert.KernelIdeal.Host.V0 m)
            [Cert.KernelIdeal.Gen.hostOps1] c Cert.KernelIdeal.main_v246,
          Cert.KernelIdeal.Region.run_results (F := Ideal) m ρ, ?_⟩
  refine (θ_run Cert.ReferenceIdeal.defs _ _).mono (fun _ h c => ⟨(h c).1.trans ?_, (h c).2.1.trans ?_, (h c).2.2.1, (h c).2.2.2⟩)
    (Cert.ReferenceIdeal.RefValue.run_stages (F := Ideal) m' ρ')
  · rw [(hagree c).1, (hagree c).2]
    exact (rgb_eq m c).symm
  · rw [(hagree c).1, (hagree c).2]
    exact (sigma_eq m c).symm

end Cert.Proof.Bridge

end
-- ==== Proof.lean ====
/-
  The certificate of the voxel-grid radiance kernel against its reference, over the extended reals.

  Both programs interpolate a 192³ × 28 voxel grid trilinearly at two million points, normalise the points to
  unit directions, and from each point's 28 interpolated features and direction compute three colours (the
  logistic of nine harmonic coefficients summed against the degree-two real spherical-harmonic basis of the
  direction) and a density (the softplus of the first feature). The reference does all of it with host
  operations; the kernel program does the interpolation and the normalisation with the same host operations,
  packs features and directions into one array of 31 columns, computes colours and density in one region over
  125 blocks of 16000 rows, and slices the packed 4-column result.

  The frames of the two kernel programs (word level and idealized) are one text read at two instances: the host
  lines around the region, the body as one triple (a whole-block load, pure arithmetic, a whole-block store), the
  region's proof data, and the library's launch theorem for a region with host lines after it (KB/ and KI/). The
  reference's frame is its run. The idealization rewrote nothing, so `preserves` is trivial. The algebraic
  conjunct is Bridge.lean.
-/
import proofs.«175109_j57191784513782_2_alg».proof.Defs
import proofs.«175109_j57191784513782_2_alg».proof.Proof.Gen.Kernel
import proofs.«175109_j57191784513782_2_alg».proof.Proof.Gen.KernelIdeal
import proofs.«175109_j57191784513782_2_alg».proof.Proof.Gen.ReferenceIdeal
import proofs.«175109_j57191784513782_2_alg».proof.Proof.Gen.Pre_finite_inputs
import proofs.«175109_j57191784513782_2_alg».proof.Proof.KB.Region
import proofs.«175109_j57191784513782_2_alg».proof.Proof.KI.Region
import proofs.«175109_j57191784513782_2_alg».proof.Proof.RefValue
import proofs.«175109_j57191784513782_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Region.frame (F := Bits) m ρ,
    fun m ρ _ => Cert.KernelIdeal.Region.frame (F := Ideal) m ρ,
    fun m ρ _ => Cert.ReferenceIdeal.RefValue.frame (F := Ideal) m ρ,
    trivial,
    Cert.Proof.Bridge.algebraic⟩

end Cert.Proof

end
